-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 2048]⟩ ⟨2, ![16384, 2048]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![16384, 1024]⟩ ⟨2, ![16384, 2048]⟩ (Layout.meshBlock [2, 2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Pre_finite_inputs_ReferenceIdeal.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S8192x2048 : Shape := ⟨2, ![8192, 2048]⟩
abbrev S16384x1024 : Shape := ⟨2, ![16384, 1024]⟩
abbrev S2x1024x1024 : Shape := ⟨3, ![2, 1024, 1024]⟩
abbrev S2 : Shape := ⟨1, ![2]⟩
abbrev S_ : Shape := ⟨0, ![]⟩
abbrev S8192x1024 : Shape := ⟨2, ![8192, 1024]⟩
abbrev S1 : Shape := ⟨1, ![1]⟩
abbrev S1x1024x1024 : Shape := ⟨3, ![1, 1024, 1024]⟩
abbrev S1024x1024 : Shape := ⟨2, ![1024, 1024]⟩

abbrev nBuf : Space → Nat
  | .hbm => 2
  | .vmem => 1
  | .smem => 0
  | _ => 0

abbrev bufTy : (tb : Table) → Fin (tcTables nBuf tb) → BufTy
  | .hbm, ⟨0, _⟩ => ⟨S8192x2048, .f32⟩
  | .hbm, ⟨1, _⟩ => ⟨S16384x1024, .f32⟩
  | .local _ .vmem, ⟨0, _⟩ => ⟨S2x1024x1024, .f32⟩
  | _, _ => ⟨S8192x2048, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_5 : BitVec 32 := 4#32
  let v11 : BitVec 32 := Scalar.muli v9 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_off1 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c8192_i32 : BitVec 32 := 8192#32
  let v18 : BitVec 32 := Scalar.muli v2 c8192_i32
  let c0_i32_13 : BitVec 32 := 0#32
  ![v18.toNat, 0]
def k0_off2 (d0 : Dev nD) : Fin 2 → Nat :=
  let c0_i32_14 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c1024_i32 : BitVec 32 := 1024#32
  let v17 : BitVec 32 := Scalar.muli v9 c1024_i32
  ![0, v17.toNat]
def k0_dev2 (d0 : Dev nD) : Nat :=
  let c0_i32_10 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_9 : BitVec 32 := 4#32
  let v19 : BitVec 32 := Scalar.muli v9 c4_i32_9
  let v20 : BitVec 32 := Scalar.addi c0_i32_10 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_11 : BitVec 32 := 2#32
  let v21 : BitVec 32 := Scalar.muli v5 c2_i32_11
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_12 : BitVec 32 := 1#32
  let v23 : BitVec 32 := Scalar.muli v8 c1_i32_12
  let v24 : BitVec 32 := Scalar.addi v22 v23
  v24.toNat
def k0_off3 (d0 : Dev nD) : Fin 2 → Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_15 : BitVec 32 := 1024#32
  let v27 : BitVec 32 := Scalar.muli v2 c1024_i32_15
  ![0, v27.toNat]
def k0_off4 (d0 : Dev nD) (c0_i32_27 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c8192_i32_26 : BitVec 32 := 8192#32
  let v38 : BitVec 32 := Scalar.muli v2 c8192_i32_26
  let v39 : BitVec 32 := Scalar.addi v38 c0_i32_27
  let c0_i32_30 : BitVec 32 := 0#32
  ![v39.toNat, 0]
def k0_off5 (d0 : Dev nD) : Fin 2 → Nat :=
  let c1024_i32_38 : BitVec 32 := 1024#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_33 : BitVec 32 := 1024#32
  let v45 : BitVec 32 := Scalar.muli v2 c1024_i32_33
  ![1024, v45.toNat]
def k0_off6 (d0 : Dev nD) : Fin 2 → Nat :=
  let c2048_i32 : BitVec 32 := 2048#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_56 : BitVec 32 := 1024#32
  let v68 : BitVec 32 := Scalar.muli v2 c1024_i32_56
  ![2048, v68.toNat]
def k0_off7 (d0 : Dev nD) : Fin 2 → Nat :=
  let c3072_i32 : BitVec 32 := 3072#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_78 : BitVec 32 := 1024#32
  let v91 : BitVec 32 := Scalar.muli v2 c1024_i32_78
  ![3072, v91.toNat]
def k0_off8 (d0 : Dev nD) : Fin 2 → Nat :=
  let c4096_i32 : BitVec 32 := 4096#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_100 : BitVec 32 := 1024#32
  let v114 : BitVec 32 := Scalar.muli v2 c1024_i32_100
  ![4096, v114.toNat]
def k0_off9 (d0 : Dev nD) : Fin 2 → Nat :=
  let c5120_i32 : BitVec 32 := 5120#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_122 : BitVec 32 := 1024#32
  let v137 : BitVec 32 := Scalar.muli v2 c1024_i32_122
  ![5120, v137.toNat]
def k0_off10 (d0 : Dev nD) : Fin 2 → Nat :=
  let c6144_i32 : BitVec 32 := 6144#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_144 : BitVec 32 := 1024#32
  let v160 : BitVec 32 := Scalar.muli v2 c1024_i32_144
  ![6144, v160.toNat]
def k0_off11 (d0 : Dev nD) : Fin 2 → Nat :=
  let c7168_i32 : BitVec 32 := 7168#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_166 : BitVec 32 := 1024#32
  let v183 : BitVec 32 := Scalar.muli v2 c1024_i32_166
  ![7168, v183.toNat]

class Facts₀ : Prop where
  hamt_1 : (1#32 : BitVec 32).msb = false
  inb_S2_S1_0 : ∀ a, (![0] : Fin 1 → Nat) a + S1.size a ≤ S2.size a
  squeezes_S1_S_ : S1.Squeezes S_
  inb_S2x1024x1024_S1x1024x1024_0_0_0 : ∀ a, (![0, 0, 0] : Fin 3 → Nat) a + S1x1024x1024.size a ≤ S2x1024x1024.size a
  squeezes_S1x1024x1024_S1024x1024 : S1x1024x1024.Squeezes S1024x1024
  inb_S2_S1_1 : ∀ a, (![1] : Fin 1 → Nat) a + S1.size a ≤ S2.size a
  inb_S2x1024x1024_S1x1024x1024_1_0_0 : ∀ a, (![1, 0, 0] : Fin 3 → Nat) a + S1x1024x1024.size a ≤ S2x1024x1024.size a
  hcc0_scratch1 : 0 + S2.numel ≤ 6
  hcc0_scratch2 : 2 + S2.numel ≤ 6
  hcc0_scratch3 : 4 + S_.numel ≤ 6
  hcc0_scratch4 : 5 + S_.numel ≤ 6
  k0_dev1_lt : ∀ d0 : Dev nD, (k0_dev1 d0) < nD
  k0_off1_inb : ∀ d0 : Dev nD, ∀ a, (k0_off1 d0) a + S8192x1024.size a ≤ S16384x1024.size a
  k0_off2_inb : ∀ d0 : Dev nD, ∀ a, (k0_off2 d0) a + S8192x1024.size a ≤ S8192x2048.size a
  k0_dev2_lt : ∀ d0 : Dev nD, (k0_dev2 d0) < nD
  k0_off3_inb : ∀ d0 : Dev nD, ∀ a, (k0_off3 d0) a + S1024x1024.size a ≤ S8192x2048.size a
  k0_off4_inb : ∀ d0 : Dev nD, ∀ (r : Fin 8), ∀ a, (k0_off4 d0 (BitVec.ofNat 32 (1024 * r.val))) a + S1024x1024.size a ≤ S16384x1024.size a
  k0_off5_inb : ∀ d0 : Dev nD, ∀ a, (k0_off5 d0) a + S1024x1024.size a ≤ S8192x2048.size a
  k0_off6_inb : ∀ d0 : Dev nD, ∀ a, (k0_off6 d0) a + S1024x1024.size a ≤ S8192x2048.size a
  k0_off7_inb : ∀ d0 : Dev nD, ∀ a, (k0_off7 d0) a + S1024x1024.size a ≤ S8192x2048.size a
  k0_off8_inb : ∀ d0 : Dev nD, ∀ a, (k0_off8 d0) a + S1024x1024.size a ≤ S8192x2048.size a
  k0_off9_inb : ∀ d0 : Dev nD, ∀ a, (k0_off9 d0) a + S1024x1024.size a ≤ S8192x2048.size a
  k0_off10_inb : ∀ d0 : Dev nD, ∀ a, (k0_off10 d0) a + S1024x1024.size a ≤ S8192x2048.size a
  k0_off11_inb : ∀ d0 : Dev nD, ∀ a, (k0_off11 d0) a + S1024x1024.size a ≤ S8192x2048.size a

variable [Facts₀]

abbrev cc0_scratch1 : DmaSems sig S2 := SemArray.consecutive 0 S2 hcc0_scratch1
abbrev cc0_scratch2 : DmaSems sig S2 := SemArray.consecutive 2 S2 hcc0_scratch2
abbrev cc0_scratch3 : DmaSems sig S_ := SemArray.consecutive 4 S_ hcc0_scratch3
abbrev cc0_scratch4 : DmaSems sig S_ := SemArray.consecutive 5 S_ hcc0_scratch4

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S16384x2048 : Shape := ⟨2, ![16384, 2048]⟩

abbrev nBuf : Space → Nat
  | .hbm => 1
  | .vmem => 0
  | .smem => 0
  | _ => 0

abbrev bufTy : (tb : Table) → Fin (tcTables nBuf tb) → BufTy
  | .hbm, ⟨0, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.KernelProto.lean ====
/-
  The all-to-all exchange along the mesh axis x, on the 2 x 2 x 2 mesh: the protocol's vocabulary.

  Device c sits at x-coordinate c / 4 and its partner along x is peer c = c ± 4. Each device holds a row block
  X_c (8192 x 2048) of the whole array and must end with a column block (16384 x 1024) of it. The rows
  [8192 (c/4), +8192) of the result are filled locally, eight chunks of 1024 rows through a two-slot buffer;
  the other 8192 rows are filled by the partner's one remote copy. Three cells per device carry the
  cross-device protocol: the barrier cell (one unit, paid by the partner's signal, handing over the rows of the
  partner's result that this device will fill), the send cell and the receive cell of the remote copy.
-/
import proofs.«900621_g7700000000000622_dist_a2a_v7x_xyz2x2x2_x_m8192_n1024_f32_1_alg».proof.Proof.Gen.Kernel
import proofs.«900621_g7700000000000622_dist_a2a_v7x_xyz2x2x2_x_m8192_n1024_f32_1_alg».proof.Proof.Gen.Kernel.Skeleton
import proofs.«900621_g7700000000000622_dist_a2a_v7x_xyz2x2x2_x_m8192_n1024_f32_1_alg».proof.Proof.Gen.Kernel.Launch
import proofs.«900621_g7700000000000622_dist_a2a_v7x_xyz2x2x2_x_m8192_n1024_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's own (one duty per round) -/

abbrev UB : Type := URounds (GSem nD τ sig) Unit
/-- The pipeline library's copy, the protocol's copy, and the counters the local copies' invariants take their tokens from. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

instance ER_landsIn : (ER (F := F)).LandsIn (upEmb : UEmb _ (MT nD τ sig Unit (Elt F) ℕ UU ℕ)) := by
  unfold ER; infer_instance

variable (m : (ℓ : Loc nD τ sig) → Buf (Elt F) ℓ) (ρ : Dev nD → PrngReg)

/-! ## The partner along x -/

def peer (c : Dev nD) : Dev nD := ⟨(c.val + 4) % 8, Nat.mod_lt _ (by decide)⟩

theorem peer_peer (c : Dev nD) : peer (peer c) = c := by revert c; decide
theorem peer_ne (c : Dev nD) : peer c ≠ c := by revert c; decide
theorem peer_x (c : Dev nD) : (peer c).val / 4 = 1 - c.val / 4 := by revert c; decide

def pairing : Dev nD ≃ Dev nD := ⟨peer, peer, peer_peer, peer_peer⟩

/-- Both device chains of the body (the signal's and the remote copy's) name the partner. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

/-! ## The memrefs and the cells -/

abbrev xM : Memref sig .tc .hbm S8192x2048 .f32 := Memref.whole main_arg0
abbrev oM : Memref sig .tc .hbm S16384x1024 .f32 := Memref.whole main_v1
abbrev vM : Memref sig .tc .vmem S2x1024x1024 .f32 := Memref.whole cc0_scratch0

/-- The remote copy's source on the firing device: the partner's 1024 columns of its row block. -/
abbrev srcM (c : Dev nD) : Memref sig .tc .hbm S8192x1024 .f32 :=
  xM.slice (Rect.unit (s := S8192x2048) (k0_off2 c) S8192x1024.size (k0_off2_inb c)) (fun _ => rfl)
/-- The remote copy's destination, a memref of the PARTNER's result: the firing device's 8192 rows of it. -/
abbrev dstM (c : Dev nD) : Memref sig .tc .hbm S8192x1024 .f32 :=
  oM.slice (Rect.unit (s := S16384x1024) (k0_off1 c) S8192x1024.size (k0_off1_inb c)) (fun _ => rfl)
/-- Local chunk r of the result: rows [8192 (c/4) + 1024 r, +1024). -/
abbrev chunkM (c : Dev nD) (r : Fin 8) : Memref sig .tc .hbm S1024x1024 .f32 :=
  oM.slice (Rect.unit (s := S16384x1024) (k0_off4 c (BitVec.ofNat 32 (1024 * r.val))) S1024x1024.size (k0_off4_inb c r)) (fun _ => rfl)

abbrev barS : Sem sig := (SemArray.scalar (sig.barrier 0 rfl) : Sems sig S_).sem
abbrev sendS : DmaSems sig S_ := cc0_scratch3
abbrev recvS : DmaSems sig S_ := cc0_scratch4

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The protocol's three cells of a device: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of the remote copy (it does not depend on the device: same buffer, same shape). -/
abbrev N : ℕ := (dstM (0 : Dev nD)).view.dmaCredit
theorem N_pos : 0 < N := View.dmaCredit_pos _ (by decide)
theorem N_eq (c : Dev nD) : (dstM c).view.dmaCredit = N := rfl

/-! ## Contents -/

/-- Device c's row block of the argument, as launched. -/
abbrev X (c : Dev nD) : Buf (Elt F) ((c : Thread nD τ).loc main_arg0) := m ((c : Thread nD τ).loc main_arg0)
/-- Device c's result buffer, as launched. -/
abbrev O₀ (c : Dev nD) : Buf (Elt F) ((c : Thread nD τ).loc main_v1) := m ((c : Thread nD τ).loc main_v1)

/-- What c's result holds once the partner's copy has landed in it: the partner's columns block written over the
    partner's rows. -/
def landed (c : Dev nD) : Buf (Elt F) ((dstM (peer c)).view.loc (c : Thread nD τ)) :=
  (dstM (peer c)).view.write (Elt F) (O₀ m c) ((srcM (peer c)).view.read (Elt F) (X m (peer c))) Finset.univ

/-- The rows of the PARTNER's result that device c's copy fills, at contents f. -/
def dstPts (c : Dev nD) (f : Buf (Elt F) ((dstM c).view.loc (peer c : Thread nD τ))) : sProp 𝕄 :=
  (dstM c).view.loc (peer c : Thread nD τ) ↦[(dstM c).view.set]{fullShare} f
/-- The columns of c's argument block that its copy reads, half a share of them. -/
def srcPts (c : Dev nD) : sProp 𝕄 :=
  (srcM c).view.loc (c : Thread nD τ) ↦[(srcM c).view.set]{fullShare.left} X m c
/-- The rows of c's own result that the partner's copy fills, once it has landed. -/
def landedPts (c : Dev nD) : sProp 𝕄 :=
  (dstM (peer c)).view.loc (c : Thread nD τ) ↦[(dstM (peer c)).view.set]{fullShare} landed m c

/-! ## The schedule: one round, one duty per cell -/

/-- The partner's signal hands device c the rows of the partner's result it will fill, as launched, and that the
    partner's receive cell is at round 0. -/
def barPay (c : Dev nD) : sProp 𝕄 := iprop(dstPts c (O₀ m (peer c)) ∗ reached ER (recvCell (peer c)) 0)
def recvPay (c : Dev nD) : sProp 𝕄 := landedPts m c
def sendPay (c : Dev nD) : sProp 𝕄 := srcPts m c

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

def a2aRd : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay m g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance dstPts_storable (c : Dev nD) (f) : BI.Storable (upEmb : UEmb _ 𝕄) (dstPts (F := F) c f) := by unfold dstPts; infer_instance
instance srcPts_storable (c : Dev nD) : BI.Storable (upEmb : UEmb _ 𝕄) (srcPts (F := F) m c) := by unfold srcPts; infer_instance
instance landedPts_storable (c : Dev nD) : BI.Storable (upEmb : UEmb _ 𝕄) (landedPts (F := F) m c) := by unfold landedPts; infer_instance

instance a2aRd_payload_storable (g : GSem nD τ sig) (r : ℕ) (d : Unit) :
    BI.Storable (upEmb : UEmb _ 𝕄) ((a2aRd (F := F) m).payload g r d) := by
  show BI.Storable upEmb (if g.2 = .reg barS then barPay m g.1.1 else if g.2 = .dma recvS.sem then recvPay m g.1.1
    else if g.2 = .dma sendS.sem then sendPay m g.1.1 else iprop(emp))
  unfold barPay recvPay sendPay
  (repeat' split) <;> infer_instance

/-- A round whose only duty is d expects that duty's amount (over any schedule). -/
theorem expect_of_single {G : Type} [DecidableEq G] {D : Type} [DecidableEq D] {M : Type} [URA M]
    (Rd : Rounds.Schedule G D M) (g : G) (r : ℕ) (d : D) (n : ℕ)
    (hd : Rd.duties g r = {d}) (ha : Rd.amount g r d = n) : Rd.expect g r = n := by
  unfold Schedule.expect Schedule.amountOf; rw [hd, Finset.sum_singleton, ha]

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

omit [FloatOps F] in
theorem duties_bar : (a2aRd (F := F) m).duties (barCell c) 0 = {()} := by
  dsimp only [a2aRd]; exact if_pos ⟨rfl, .inl ⟨rfl, rfl⟩⟩
omit [FloatOps F] in
theorem duties_send : (a2aRd (F := F) m).duties (sendCell c) 0 = {()} := by
  dsimp only [a2aRd]; exact if_pos ⟨rfl, .inr ⟨rfl, .inl rfl⟩⟩
omit [FloatOps F] in
theorem duties_recv : (a2aRd (F := F) m).duties (recvCell c) 0 = {()} := by
  dsimp only [a2aRd]; exact if_pos ⟨rfl, .inr ⟨rfl, .inr rfl⟩⟩
omit [FloatOps F] in
theorem duties_later (g : GSem nD τ sig) : ∀ r, 1 ≤ r → (a2aRd (F := F) m).duties g r = ∅ :=
  fun r hr => by dsimp only [a2aRd]; rw [if_neg fun h => by omega]

omit [FloatOps F] in
theorem amount_bar (d : Unit) : (a2aRd (F := F) m).amount (barCell c) 0 d = 1 := by dsimp only [a2aRd]; exact if_pos rfl
omit [FloatOps F] in
theorem amount_send (d : Unit) : (a2aRd (F := F) m).amount (sendCell c) 0 d = N := by dsimp only [a2aRd]; exact if_neg send_ne_bar
omit [FloatOps F] in
theorem amount_recv (d : Unit) : (a2aRd (F := F) m).amount (recvCell c) 0 d = N := by dsimp only [a2aRd]; exact if_neg recv_ne_bar

omit [FloatOps F] in
theorem expect_bar : (a2aRd (F := F) m).expect (barCell c) 0 = 1 :=
  expect_of_single _ _ _ _ _ (duties_bar m c) (amount_bar m c ())
omit [FloatOps F] in
theorem expect_send : (a2aRd (F := F) m).expect (sendCell c) 0 = N :=
  expect_of_single _ _ _ _ _ (duties_send m c) (amount_send m c ())
omit [FloatOps F] in
theorem expect_recv : (a2aRd (F := F) m).expect (recvCell c) 0 = N :=
  expect_of_single _ _ _ _ _ (duties_recv m c) (amount_recv m c ())

omit [FloatOps F] in
theorem payload_bar (d : Unit) : (a2aRd (F := F) m).payload (barCell c) 0 d = barPay m c := by dsimp only [a2aRd]; rw [if_pos rfl]
omit [FloatOps F] in
theorem payload_send (d : Unit) : (a2aRd (F := F) m).payload (sendCell c) 0 d = sendPay m c := by
  dsimp only [a2aRd]; rw [if_neg send_ne_bar, if_neg send_ne_recv, if_pos rfl]
omit [FloatOps F] in
theorem payload_recv (d : Unit) : (a2aRd (F := F) m).payload (recvCell c) 0 d = recvPay m c := by
  dsimp only [a2aRd]; rw [if_neg recv_ne_bar, if_pos rfl]

omit [FloatOps F] in
theorem rest_bar : bigSep ((a2aRd (F := F) m).duties (barCell c) 0 \ ∅) (fun d => (a2aRd (F := F) m).payload (barCell c) 0 d) = barPay m c := by
  rw [Finset.sdiff_empty, duties_bar, bigSep_singleton, payload_bar]
omit [FloatOps F] in
theorem rest_send : bigSep ((a2aRd (F := F) m).duties (sendCell c) 0 \ ∅) (fun d => (a2aRd (F := F) m).payload (sendCell c) 0 d) = sendPay m c := by
  rw [Finset.sdiff_empty, duties_send, bigSep_singleton, payload_send]
omit [FloatOps F] in
theorem rest_recv : bigSep ((a2aRd (F := F) m).duties (recvCell c) 0 \ ∅) (fun d => (a2aRd (F := F) m).payload (recvCell c) 0 d) = recvPay m c := by
  rw [Finset.sdiff_empty, duties_recv, bigSep_singleton, payload_recv]

end Sched

/-! ## What each device owes at launch; the levels -/

/-- Device c owes its partner's receive cell the copy's credit and its partner's barrier cell one unit (the signal,
    paid first, peels the last summand). -/
def Ow (c : Dev nD) : CellTallies nD τ sig Unit := tallyAt (recvCell (peer c)) () N + tallyAt (barCell (peer c)) () 1

def Lset (g : GSem nD τ sig) : Finset Unit := if g.1.2 = .tc then {()} else ∅
/-- barrier cells at 1, receive cells at 2, everything else (the local copies' cells, the send cells) at 0. -/
def lv (g : GSem nD τ sig) (_ : Unit) : ℕ := if g.2 = .reg barS then 1 else if g.2 = .dma recvS.sem then 2 else 0

theorem Lset_of_ne (g : GSem nD τ sig) (h : g.1.2 ≠ .tc) : Lset g = ∅ := if_neg h
theorem Lset_tc (c : Dev nD) (sm : SemLoc sig) : Lset ((c : Thread nD τ), sm) = {()} := if_pos rfl

omit [FloatOps F] in
/-- At its barrier wait a device owes its partner's receive credit only: a receive cell, above the barrier cells. -/
theorem mayWait_bar (c : Dev nD) :
    (levAts Lset lv : sProp 𝕄) ⊢ MayWait (c : Thread nD τ) (.reg barS) () (tallyAt (recvCell (peer c)) () N) :=
  MayOwe.of_cut (L := Lset) (lev := lv) 1 (fun p hp => by rw [Finset.mem_singleton.mp hp, Lset_tc]; exact Finset.mem_singleton_self _)
    (fun g u hg => by
      rw [tallyAt_apply] at hg
      by_cases h : g = recvCell (peer c) ∧ u = ()
      · rw [h.1, Lset_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

end Cert.Kernel.A2A

end
-- ==== Proof.KernelData.lean ====
/-
  The all-to-all exchange: what a device's body starts from and ends with.

  A device starts holding its argument block and its result buffer whole, its scratch slots, the six DMA cells of the
  kernel (four for the local copies, at zero; the send and receive cells under the protocol's invariants), and its
  share of the protocol's ghost state. It ends holding the argument block unchanged and the result buffer at
  `finalO`: on the partner's rows what the partner's copy wrote, on its own rows its own columns of its block.
-/
import proofs.«900621_g7700000000000622_dist_a2a_v7x_xyz2x2x2_x_m8192_n1024_f32_1_alg».proof.Proof.KernelProto

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The kernel's own cells -/

/-- The kernel's six scoped DMA semaphores: the reads' two, the writes' two, send, receive. -/
abbrev osem : Fin 6 → SemLoc sig := fun k => .dma ⟨k.val, k.isLt⟩
/-- A local copy's cell on device c. -/
abbrev lcell (c : Dev nD) (k : ℕ) (h : k < 6 := by decide) : GSem nD τ sig := ((c : Thread nD τ), .dma ⟨k, h⟩)

/-- The four cells of the local copies, at zero. -/
def locals (c : Dev nD) : sProp 𝕄 :=
  iprop(semVal (lcell c 0) 0 ∗ semVal (lcell c 1) 0 ∗ semVal (lcell c 2) 0 ∗ semVal (lcell c 3) 0)

/-! ## The result -/

/-- Chunk r of device c's own rows once filled: its columns of rows [1024 r, +1024) of its argument block. -/
def chunkFill (c : Dev nD) (r : Fin 8) : S1024x1024.Idx → Elt F .f32 := fun i =>
  X m c (fun a => match a with
    | ⟨0, _⟩ => ⟨1024 * r.val + (i 0).val, by have h1 : (i 0).val < 1024 := (i 0).isLt; have h2 : r.val < 8 := r.isLt; show _ < 8192; omega⟩
    | ⟨1, _⟩ => ⟨1024 * (c.val / 4) + (i 1).val, by have h1 : (i 1).val < 1024 := (i 1).isLt; have h2 : c.val < 8 := c.isLt; show _ < 2048; omega⟩)

/-- The result buffer of device c at the end: row i holds, in column j, entry (i mod 8192, 1024 (c/4) + j) of the
    argument block of the device whose x-coordinate is i / 8192 — the device itself or its partner. -/
def finalO (c : Dev nD) : Buf (Elt F) ((c : Thread nD τ).loc main_v1) := fun i =>
  (if (i 0).val / 8192 = c.val / 4 then X m c else X m (peer c)) (fun a => match a with
    | ⟨0, _⟩ => ⟨(i 0).val % 8192, Nat.mod_lt _ (by decide)⟩
    | ⟨1, _⟩ => ⟨1024 * (c.val / 4) + (i 1).val, by have h1 : (i 1).val < 1024 := (i 1).isLt; have h2 : c.val < 8 := c.isLt; show _ < 2048; omega⟩)

/-! ## The ghost state -/

/-- The cells' invariants device c's body opens, under the names K the launch allocated them at: its own three, its
    partner's barrier cell (its signal) and receive cell (its copy). -/
def invs (K : Dev nD × Fin 3 → ℕ) (c : Dev nD) : sProp 𝕄 :=
  iprop(cellInv ER (a2aRd m) (K (c, 0)) (barCell c) ∗ cellInv ER (a2aRd m) (K (c, 1)) (sendCell c) ∗ cellInv ER (a2aRd m) (K (c, 2)) (recvCell c)
    ∗ cellInv ER (a2aRd m) (K (peer c, 0)) (barCell (peer c)) ∗ cellInv ER (a2aRd m) (K (peer c, 2)) (recvCell (peer c)))

instance invs_persistent (K : Dev nD × Fin 3 → ℕ) (c : Dev nD) : BI.Persistent (invs m K c) := by unfold invs; infer_instance

/-- Device c's ghost state at the start: the invariants; its positions at round 0 of its three cells; round 0 reached
    on the cells it pays and on its own send and receive cells; the three duty tokens it pays with. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What the launch hands device c outside its scoped storage: the ghost state at some names, the launch credit of its
    barrier and receive cells, the levels, the local copies' cells at zero, and its two arrays as launched. -/
def start (c : Dev nD) : sProp 𝕄 :=
  iprop((∃ K, ghost m K c) ∗ cred (tallyAt (barCell c) () 1) ∗ cred (tallyAt (recvCell c) () N) ∗ levAts Lset lv
    ∗ locals c
    ∗ (((c : Thread nD τ).loc main_arg0) ↦{fullShare} X m c) ∗ (((c : Thread nD τ).loc main_v1) ↦{fullShare} O₀ m c))

/-- Before the body: that and the scratch slots at some contents. -/
def Φ₀ (c : Dev nD) : sProp 𝕄 :=
  iprop(start m c ∗ ∃ f : Buf (Elt F) ((c : Thread nD τ).loc cc0_scratch0), ((c : Thread nD τ).loc cc0_scratch0) ↦{fullShare} f)

/-- After the body: the argument block unchanged, the result at `finalO`, the scratch slots, and all six cells back at
    zero (the send and receive cells closed). -/
def Φ₁ (c : Dev nD) : sProp 𝕄 :=
  iprop((((c : Thread nD τ).loc main_arg0) ↦{fullShare} X m c) ∗ (((c : Thread nD τ).loc main_v1) ↦{fullShare} finalO m c)
    ∗ (∃ f : Buf (Elt F) ((c : Thread nD τ).loc cc0_scratch0), ((c : Thread nD τ).loc cc0_scratch0) ↦{fullShare} f)
    ∗ locals c ∗ semVal (sendCell c) 0 ∗ semVal (recvCell c) 0)

/-- The pipeline's proof data: the call has no window; one point. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => Ow c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.Kernel.A2A

end
-- ==== Proof.KernelLaunch.lean ====
/-
  The all-to-all exchange: from one device's body to the run of the whole mesh.

  The launch element is dealt out device by device: the round state, the position and the round-0 record of each of a
  device's three protocol cells, and one duty token per cell. The barrier token and the receive token of a device go
  to its partner, who pays those duties; the send token stays with the device. Every device's seven counters arrive at
  zero: the barrier, send and receive cells are closed under their invariants, all devices' at once, and the four cells
  of the local copies pass through untouched. A device's launch credit is one unit on its barrier cell and the remote
  copy's credit on its receive cell, both owed by its partner alone. At the end each device's two arrays are read off
  the final memory: the argument block as launched, the result at the closed form of the data module.
-/
import proofs.«900621_g7700000000000622_dist_a2a_v7x_xyz2x2x2_x_m8192_n1024_f32_1_alg».proof.Proof.KernelData

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

theorem ownSemFacts : Pipeline.OwnSemFacts cfg0.spec osem := by decide

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- The 8 × 3 protocol cells. -/
def ringCells : Finset (GSem nD τ sig) := Finset.univ.map ⟨kcell, kcell_injective⟩

/-- One duty token per cell: round 0, the one duty. -/
abbrev tokOf (ck : Dev nD × Fin 3) : GSem nD τ sig × ℕ × Unit := (kcell ck, 0, ())
theorem tokOf_injective : Function.Injective (tokOf : Dev nD × Fin 3 → GSem nD τ sig × ℕ × Unit) :=
  fun _ _ h => kcell_injective (congrArg Prod.fst h)
def ringToks : Finset (GSem nD τ sig × ℕ × Unit) := Finset.univ.map ⟨tokOf, tokOf_injective⟩

def u₀ : UU :=
  (initOf (Pipeline.cells cfgs cellOf_inj) (Pipeline.launchToks cfgs cellOf_inj), (initOf ringCells ringToks, 1))

/-- The duty tokens of device c's own cells. -/
def toks (c : Dev nD) : sProp 𝕄 :=
  iprop(dutyTok ER (barCell c) 0 () ∗ dutyTok ER (sendCell c) 0 () ∗ dutyTok ER (recvCell c) 0 ())

/-- What the launch element deals device c. -/
def G (c : Dev nD) : sProp 𝕄 :=
  iprop((bigSep Finset.univ fun k : Fin 3 => roundState ER (a2aRd m) (kcell (c, k)) 0)
    ∗ (bigSep Finset.univ fun k : Fin 3 => iprop(atPos ER (kcell (c, k)) 0 ∅ 0 ∗ reached ER (kcell (c, k)) 0)) ∗ toks c)

/-- What the global step makes of it, with the local copies' cells passed through. -/
def G' (c : Dev nD) : sProp 𝕄 := iprop((∃ K, ghost m K c) ∗ locals c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 3 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin3]; rfl
  iintro HX
  imod (Rounds.fund ER (a2aRd m) ringCells ringToks) $$ HX with ⟨Hst, Hr, Hat, Htok⟩
  imodintro
  ihave Hst' := (Entails.of_eq (hX fun g => roundState ER (a2aRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero -/

omit [FloatOps F] in
/-- The kernel's own six cells: the local copies' four, send, receive. -/
theorem ownSems0_eq (c : Dev nD) : (Pipeline.ownSems0 (Ix := Unit) (Name := ℕ) (U := UU) (Lvl := ℕ) (Val := Elt F) (τ := τ) osem c : sProp 𝕄)
    = iprop(semVal (lcell c 0) 0 ∗ semVal (lcell c 1) 0 ∗ semVal (lcell c 2) 0 ∗ semVal (lcell c 3) 0 ∗ semVal (sendCell c) 0 ∗ semVal (recvCell c) 0) := by
  rw [Pipeline.ownSems0_eq_of_list c osem [0, 1, 2, 3, 4, 5] (by decide) (by decide)]; rfl
omit [FloatOps F] in
/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 3 => semVal (kcell (c, k)) 0 : sProp 𝕄) ∗ locals c) := by
  rw [ownSems0_eq, unscopedSems0_eq, bigSep_fin3]
  unfold locals
  iintro ⟨⟨H0, H1, H2, H3, HS, HV⟩, HB⟩
  isplitl [HB HS HV]
  · isplitl [HB]; · iexact HB
    isplitl [HS] <;> iassumption
  isplitl [H0]; · iexact H0
  isplitl [H1]; · iexact H1
  isplitl [H2] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(((bigSep Finset.univ fun k => iprop(∃ κ : ℕ, cellInv ER (a2aRd m) κ (kcell (c, k))))
          ∗ (bigSep Finset.univ fun k => iprop(atPos ER (kcell (c, k)) 0 ∅ 0 ∗ reached ER (kcell (c, k)) 0)) ∗ toks c) ∗ locals c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun k : Fin 3 => semVal (kcell (c, k)) 0) ∗ bigSep Finset.univ fun k : Fin 3 => roundState ER (a2aRd m) (kcell (c, k)) 0)
      ⊢ (|={Set.univ}=> bigSep Finset.univ fun k => iprop(∃ κ : ℕ, cellInv ER (a2aRd m) κ (kcell (c, k))) : sProp 𝕄) from by
        rw [← bigSep_sep']
        exact (bigSep_mono fun k _ => (Rounds.body_intro ER (a2aRd m) (kcell (c, k))).trans inv_alloc).trans (bigSep_fupd _ _)) $$ [Hv Hst] with Hinv
  · isplitl [Hv] <;> iassumption
  imodintro
  isplitr [Hloc]
  · isplitl [Hinv]; · iexact Hinv
    isplitl [Hat]; · iexact Hat
    iexact Htok
  iexact Hloc

/-! ## Every cell's invariant and round-0 record, for every device -/

def records (K : Dev nD × Fin 3 → ℕ) : sProp 𝕄 :=
  iprop((bigSep Finset.univ fun ck : Dev nD × Fin 3 => cellInv ER (a2aRd m) (K ck) (kcell ck))
    ∗ bigSep Finset.univ fun ck : Dev nD × Fin 3 => reached ER (kcell ck) 0)

instance records_persistent (K : Dev nD × Fin 3 → ℕ) : BI.Persistent (records m K) := by unfold records; infer_instance

omit [FloatOps F] in
theorem inv_at (K : Dev nD × Fin 3 → ℕ) (ck : Dev nD × Fin 3) :
    (bigSep Finset.univ fun ck : Dev nD × Fin 3 => (cellInv ER (a2aRd m) (K ck) (kcell ck) : sProp 𝕄)) ⊢ cellInv ER (a2aRd m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- The tokens of the duties device c pays: its partner's barrier and receive duties, its own send duty. -/
def payToks (c : Dev nD) : sProp 𝕄 :=
  iprop(dutyTok ER (barCell (peer c)) 0 () ∗ dutyTok ER (recvCell (peer c)) 0 () ∗ dutyTok ER (sendCell c) 0 ())
/-- What stays with device c alone: its positions and those tokens. -/
def linear (c : Dev nD) : sProp 𝕄 :=
  iprop((atPos ER (barCell c) 0 ∅ 0 ∗ atPos ER (sendCell c) 0 ∅ 0 ∗ atPos ER (recvCell c) 0 ∅ 0) ∗ payToks c)

omit [FloatOps F] in
theorem ghost_intro (K : Dev nD × Fin 3 → ℕ) (c : Dev nD) : iprop(records m K ∗ linear c) ⊢ iprop(∃ K, ghost m K c) := by
  unfold records linear payToks ghost invs
  iintro ⟨⟨#HI, #HR⟩, ⟨HaB, HaS, HaV⟩, HtB, HtV, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtB]; · iexact HtB
  isplitl [HtV]; · iexact HtV
  iexact HtS

omit [FloatOps F] in
/-- The tokens dealt across the pairs: a device's barrier token and receive token go to its partner. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (a2aRd m) κ (kcell (c, k))))
          ∗ (bigSep Finset.univ fun k => iprop(atPos ER (kcell (c, k)) 0 ∅ 0 ∗ reached ER (kcell (c, k)) 0)) ∗ toks c) : sProp 𝕄)
      ⊢ bigSep Finset.univ fun c : Dev nD => iprop(∃ K, ghost m K c) := by
  rw [bigSep_sep', bigSep_sep', ← bigSep_univ_prod (fun ck : Dev nD × Fin 3 => iprop(∃ κ : ℕ, cellInv ER (a2aRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (a2aRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

omit [FloatOps F] in
/-- The same with the local copies' cells carried along. -/
theorem regroup_locals :
    (bigSep Finset.univ fun c : Dev nD => iprop(((bigSep Finset.univ fun k => iprop(∃ κ : ℕ, cellInv ER (a2aRd m) κ (kcell (c, k))))
          ∗ (bigSep Finset.univ fun k => iprop(atPos ER (kcell (c, k)) 0 ∅ 0 ∗ reached ER (kcell (c, k)) 0)) ∗ toks c) ∗ locals c) : sProp 𝕄)
      ⊢ bigSep Finset.univ (G' m) := by
  rw [bigSep_sep']
  refine (sep_mono_left (regroup m)).trans ?_
  exact Entails.of_eq (bigSep_sep' Finset.univ (fun c : Dev nD => iprop(∃ K, ghost m K c)) (fun c : Dev nD => (locals c : sProp 𝕄))).symm

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup_locals m))

/-! ## The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device d owes device c's barrier cell: a unit when d is c's partner. -/
theorem owed_bar (d c : Dev nD) : Ow d (barCell c) () = if d = peer c then 1 else 0 := by
  unfold Ow
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
/-- What device d owes device c's receive cell: the copy's credit when d is c's partner. -/
theorem owed_recv (d c : Dev nD) : Ow d (recvCell c) () = if d = peer c then N else 0 := by
  unfold Ow
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing Ow) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing Ow) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (peer c) fun _ => N, if_pos (Finset.mem_univ _)]

omit [FloatOps F] in
theorem creds (c : Dev nD) :
    (Pipeline.launchCred Ow c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ## The theorem's side conditions -/

omit [FloatOps F] in
theorem start_intro (c : Dev nD) :
    iprop(Pipeline.unscopedRestP Pipeline.Prefetch.none cfg0.spec c (fun b => m ((c : Thread nD τ).loc b)) ∗ levAts Lset lv
        ∗ Pipeline.launchCred Ow c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  icases Hc with ⟨H1, HN⟩
  imodintro
  unfold start G'
  icases HG with ⟨HG, Hloc⟩
  isplitl
  · isplitl [HG]; · iexact HG
    isplitl [H1]; · iexact H1
    isplitl [HN]; · iexact HN
    isplitl [Hlev]; · iexact Hlev
    isplitl [Hloc]; · iexact Hloc
    isplitl [Hx]; · iexact Hx
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m 0 c).Φ (Fin.last cfg0.N) ⊢ iprop(((((c : Thread nD τ).loc main_arg0) ↦{fullShare} X m c) ∗ (((c : Thread nD τ).loc main_v1) ↦{fullShare} finalO m c))
      ∗ Pipeline.ownSems0 osem c ∗ Pipeline.scopedRest cfg0.spec c) := by
  rw [show (dats m 0 c).Φ (Fin.last cfg0.N) = Φ₁ m c from rfl, scopedRest0_eq, ownSems0_eq]
  unfold Φ₁ locals
  iintro ⟨Hx, Ho, ⟨%f, Hr⟩, ⟨H0, H1, H2, H3⟩, HzS, HzV⟩
  isplitl [Hx Ho]
  · isplitl [Hx] <;> iassumption
  isplitr [Hr]
  · isplitl [H0]; · iexact H0
    isplitl [H1]; · iexact H1
    isplitl [H2]; · iexact H2
    isplitl [H3]; · iexact H3
    isplitl [HzS] <;> iassumption
  iexists f; iexact Hr

omit [FloatOps F] in
theorem waits (c : Dev nD) : (levAts Lset lv : sProp 𝕄) ⊢ Pipeline.cellsWaits cfgs (dats m) () 0 c :=
  Pipeline.cellsWaits_intro cfgs (dats m) () 0 c fun w => w.elim0

/-! ## The run -/

set_option maxRecDepth 8000 in
/-- At the compiled mesh of eight devices, for any float values, from any memory with zero counters, given the body
    obligation of every device: every weakly fair execution of @main terminates, and every final state has each device's
    result array at its closed form and its argument block unchanged. -/
theorem run_main (hbody : ∀ c : Dev nD, BodyObligation (dats (F := F) m 0 c) (defs₀ (F := F)) 𝒱₀ () Set.univ) :
    θ_run defs (onTc (τ := τ) (main (F := F))) (s₀ m ρ) (fun r => ∀ c : Dev nD,
      r.2.mem ((c : Thread nD τ).loc main_v1) = finalO m c
      ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := fun _ w => w.elim0)
    (hdistinct := winFacts0.arr_inj)
    (O₀ := Ow) (howed₀ := fun _ => rfl) (howedN := fun _ => rfl)
    (L := Lset) (lv := lv) (hL := Lset_of_ne) (hwaits := waits m)
    (G := G m) (G' := G' m) (u₀ := u₀)
    (hu₀ := by
      unfold u₀
      iintro Hu
      ihave H := (ownU_pair _ _) $$ Hu
      icases H with ⟨HP, HXC⟩
      ihave H' := (own_pair_emb embR _ _) $$ HXC
      icases H' with ⟨HX, -⟩
      imod (fund_ring m) $$ HX with HG
      imodintro
      isplitl [HP] <;> iassumption)
    (hglob := glob m)
    (hA := fun _ w => w.elim0) (hpf := fun _ k => k.elim0)
    (X := start m) (Y := fun c => iprop((((c : Thread nD τ).loc main_arg0) ↦{fullShare} X m c) ∗ (((c : Thread nD τ).loc main_v1) ↦{fullShare} finalO m c)))
    (Z := fun _ => iprop(emp))
    (hX := start_intro m ρ) (hin := phi0_intro m) (hout := phi1_exit m)
    (QY := fun c s => s.mem ((c : Thread nD τ).loc main_v1) = finalO m c ∧ s.mem ((c : Thread nD τ).loc main_arg0) = m ((c : Thread nD τ).loc main_arg0))
    (hY := fun c s' => by
      iintro ⟨⟨Hx, Ho⟩, -, HSI⟩
      icombine HSI Hx gives %hx
      icombine HSI Ho gives %ho
      imodintro
      isplitr
      · ipureintro; exact ⟨Buf.eq_of_forall_mem_univ ho, Buf.eq_of_forall_mem_univ hx⟩
      iexact HSI)
    (hQ := fun _ h c => (h c).2.2)

/-- info: 'Cert.Kernel.A2A.run_main' depends on axioms: [propext, Classical.choice, Quot.sound] -/
#guard_msgs in #print axioms run_main

end Cert.Kernel.A2A

end
-- ==== Proof.KernelRegions.lean ====
/-
  The all-to-all exchange: cutting a device's two arrays into the regions the copies work on, and putting them back.

  The result buffer of device c (16384 x 1024) is nine row bands: the 8192 rows [8192 (peer c / 4), +8192) that the
  partner's copy fills, and the eight chunks [8192 (c/4) + 1024 r, +1024), r < 8, of its own 8192 rows. The bands are
  pairwise disjoint (they are separated on the row axis) and every row lies in one of them, so the whole buffer is
  the separating conjunction of the nine bands, at any contents. At the end each band holds the final contents
  `finalO`: on the partner's rows what the partner's copy wrote (the partner's block, columns [1024 (c/4), +1024)),
  on chunk r the device's own block, rows [1024 r, +1024) of the same columns. The argument block (8192 x 2048) is
  only read: half a share of the columns the remote copy reads is set apart, the rest of that half and the other
  half stay with the local copies.
-/
import proofs.«900621_g7700000000000622_dist_a2a_v7x_xyz2x2x2_x_m8192_n1024_f32_1_alg».proof.Proof.KernelData
import Idealize.ShloMosaic.Lib.Pipeline.Value

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The row bands of the result, by coordinates -/

/-- The rows device d's copy fills in its partner's result: [8192 (d/4), +8192), every column. -/
theorem mem_dst (d : Dev nD) (i : S16384x1024.Idx) :
    i ∈ (dstM d).view.set ↔ 8192 * (d.val / 4) ≤ (i 0).val ∧ (i 0).val < 8192 * (d.val / 4) + 8192 := by
  show i ∈ ((View.whole main_v1).slice (Rect.unit (s := S16384x1024) (k0_off1 d) S8192x1024.size (k0_off1_inb d))).set ↔ _
  rw [View.set_slice_whole, Rect.mem_set_unit, k0_off1_eq]
  constructor
  · intro h
    have h0 : 8192 * (d.val / 4) ≤ (i 0).val ∧ (i 0).val < 8192 * (d.val / 4) + 8192 := h 0
    exact h0
  · intro h a
    match a with
    | ⟨0, _⟩ => exact h
    | ⟨1, _⟩ =>
      have h1 : (i 1).val < 1024 := (i 1).isLt
      show 0 ≤ (i 1).val ∧ (i 1).val < 0 + 1024
      omega

/-- Chunk r of device c's own rows: [8192 (c/4) + 1024 r, +1024), every column. -/
theorem mem_chunk (c : Dev nD) (r : Fin 8) (i : S16384x1024.Idx) :
    i ∈ (chunkM c r).view.set ↔ 8192 * (c.val / 4) + 1024 * r.val ≤ (i 0).val ∧ (i 0).val < 8192 * (c.val / 4) + 1024 * r.val + 1024 := by
  show i ∈ ((View.whole main_v1).slice (Rect.unit (s := S16384x1024) (k0_off4 c (BitVec.ofNat 32 (1024 * r.val))) S1024x1024.size (k0_off4_inb c r))).set ↔ _
  rw [View.set_slice_whole, Rect.mem_set_unit, k0_off4_eq]
  constructor
  · intro h
    have h0 : 8192 * (c.val / 4) + 1024 * r.val ≤ (i 0).val ∧ (i 0).val < 8192 * (c.val / 4) + 1024 * r.val + 1024 := h 0
    exact h0
  · intro h a
    match a with
    | ⟨0, _⟩ => exact h
    | ⟨1, _⟩ =>
      have h1 : (i 1).val < 1024 := (i 1).isLt
      show 0 ≤ (i 1).val ∧ (i 1).val < 0 + 1024
      omega

/-- The columns of device c's argument block that its copy reads: [1024 (peer c / 4), +1024), every row. -/
theorem mem_src (c : Dev nD) (i : S8192x2048.Idx) :
    i ∈ (srcM c).view.set ↔ 1024 - 1024 * (c.val / 4) ≤ (i 1).val ∧ (i 1).val < 1024 - 1024 * (c.val / 4) + 1024 := by
  show i ∈ ((View.whole main_arg0).slice (Rect.unit (s := S8192x2048) (k0_off2 c) S8192x1024.size (k0_off2_inb c))).set ↔ _
  rw [View.set_slice_whole, Rect.mem_set_unit, k0_off2_eq]
  constructor
  · intro h
    have h1 : 1024 - 1024 * (c.val / 4) ≤ (i 1).val ∧ (i 1).val < 1024 - 1024 * (c.val / 4) + 1024 := h 1
    exact h1
  · intro h a
    match a with
    | ⟨0, _⟩ =>
      have h0 : (i 0).val < 8192 := (i 0).isLt
      show 0 ≤ (i 0).val ∧ (i 0).val < 0 + 8192
      omega
    | ⟨1, _⟩ => exact h

/-- The partner's rows and a chunk of the device's own rows do not meet. -/
theorem rem_chunk_disjoint (c : Dev nD) (r : Fin 8) : Disjoint (dstM (peer c)).view.set (chunkM c r).view.set := by
  rw [Finset.disjoint_left]
  intro i h1 h2
  rw [mem_dst] at h1
  rw [mem_chunk] at h2
  have hp := peer_x c
  have hr := r.isLt
  have hc8 : c.val < 8 := c.isLt
  have hc : c.val / 4 ≤ 1 := by omega
  omega

/-- Two different chunks do not meet. -/
theorem chunk_chunk_disjoint (c : Dev nD) (r s : Fin 8) (h : r ≠ s) : Disjoint (chunkM c r).view.set (chunkM c s).view.set := by
  rw [Finset.disjoint_left]
  intro i h1 h2
  rw [mem_chunk] at h1 h2
  have hne : r.val ≠ s.val := fun e => h (Fin.ext e)
  omega

/-! ## Every row lies in one of the nine bands -/

/-- The nine bands of device c's result, as one union: the partner's rows first, then the eight chunks in order. -/
abbrev bands (c : Dev nD) : Finset (Idx ((c : Thread nD τ).loc main_v1)) :=
  (dstM (peer c)).view.set ∪ ((chunkM c 0).view.set ∪ ((chunkM c 1).view.set ∪ ((chunkM c 2).view.set ∪ ((chunkM c 3).view.set
    ∪ ((chunkM c 4).view.set ∪ ((chunkM c 5).view.set ∪ ((chunkM c 6).view.set ∪ (chunkM c 7).view.set)))))))

theorem bands_eq_univ (c : Dev nD) : bands c = Finset.univ := by
  refine Finset.eq_univ_of_forall fun i => ?_
  have h0 : (i 0).val < 16384 := (i 0).isLt
  have hp := peer_x c
  have hc8 : c.val < 8 := c.isLt
  have hc : c.val / 4 ≤ 1 := by omega
  have e0 : ((0 : Fin 8) : ℕ) = 0 := rfl
  have e1 : ((1 : Fin 8) : ℕ) = 1 := rfl
  have e2 : ((2 : Fin 8) : ℕ) = 2 := rfl
  have e3 : ((3 : Fin 8) : ℕ) = 3 := rfl
  have e4 : ((4 : Fin 8) : ℕ) = 4 := rfl
  have e5 : ((5 : Fin 8) : ℕ) = 5 := rfl
  have e6 : ((6 : Fin 8) : ℕ) = 6 := rfl
  have e7 : ((7 : Fin 8) : ℕ) = 7 := rfl
  have key :
      (8192 * ((peer c).val / 4) ≤ (i 0).val ∧ (i 0).val < 8192 * ((peer c).val / 4) + 8192)
      ∨ (8192 * (c.val / 4) + 1024 * ((0 : Fin 8) : ℕ) ≤ (i 0).val ∧ (i 0).val < 8192 * (c.val / 4) + 1024 * ((0 : Fin 8) : ℕ) + 1024)
      ∨ (8192 * (c.val / 4) + 1024 * ((1 : Fin 8) : ℕ) ≤ (i 0).val ∧ (i 0).val < 8192 * (c.val / 4) + 1024 * ((1 : Fin 8) : ℕ) + 1024)
      ∨ (8192 * (c.val / 4) + 1024 * ((2 : Fin 8) : ℕ) ≤ (i 0).val ∧ (i 0).val < 8192 * (c.val / 4) + 1024 * ((2 : Fin 8) : ℕ) + 1024)
      ∨ (8192 * (c.val / 4) + 1024 * ((3 : Fin 8) : ℕ) ≤ (i 0).val ∧ (i 0).val < 8192 * (c.val / 4) + 1024 * ((3 : Fin 8) : ℕ) + 1024)
      ∨ (8192 * (c.val / 4) + 1024 * ((4 : Fin 8) : ℕ) ≤ (i 0).val ∧ (i 0).val < 8192 * (c.val / 4) + 1024 * ((4 : Fin 8) : ℕ) + 1024)
      ∨ (8192 * (c.val / 4) + 1024 * ((5 : Fin 8) : ℕ) ≤ (i 0).val ∧ (i 0).val < 8192 * (c.val / 4) + 1024 * ((5 : Fin 8) : ℕ) + 1024)
      ∨ (8192 * (c.val / 4) + 1024 * ((6 : Fin 8) : ℕ) ≤ (i 0).val ∧ (i 0).val < 8192 * (c.val / 4) + 1024 * ((6 : Fin 8) : ℕ) + 1024)
      ∨ (8192 * (c.val / 4) + 1024 * ((7 : Fin 8) : ℕ) ≤ (i 0).val ∧ (i 0).val < 8192 * (c.val / 4) + 1024 * ((7 : Fin 8) : ℕ) + 1024) := by
    omega
  rcases key with h | h | h | h | h | h | h | h | h
  · exact Finset.mem_union_left _ ((mem_dst (peer c) i).mpr h)
  · exact Finset.mem_union_right _ (Finset.mem_union_left _ ((mem_chunk c 0 i).mpr h))
  · exact Finset.mem_union_right _ (Finset.mem_union_right _ (Finset.mem_union_left _ ((mem_chunk c 1 i).mpr h)))
  · exact Finset.mem_union_right _ (Finset.mem_union_right _ (Finset.mem_union_right _ (Finset.mem_union_left _ ((mem_chunk c 2 i).mpr h))))
  · exact Finset.mem_union_right _ (Finset.mem_union_right _ (Finset.mem_union_right _ (Finset.mem_union_right _
      (Finset.mem_union_left _ ((mem_chunk c 3 i).mpr h)))))
  · exact Finset.mem_union_right _ (Finset.mem_union_right _ (Finset.mem_union_right _ (Finset.mem_union_right _
      (Finset.mem_union_right _ (Finset.mem_union_left _ ((mem_chunk c 4 i).mpr h))))))
  · exact Finset.mem_union_right _ (Finset.mem_union_right _ (Finset.mem_union_right _ (Finset.mem_union_right _
      (Finset.mem_union_right _ (Finset.mem_union_right _ (Finset.mem_union_left _ ((mem_chunk c 5 i).mpr h)))))))
  · exact Finset.mem_union_right _ (Finset.mem_union_right _ (Finset.mem_union_right _ (Finset.mem_union_right _
      (Finset.mem_union_right _ (Finset.mem_union_right _ (Finset.mem_union_right _ (Finset.mem_union_left _ ((mem_chunk c 6 i).mpr h))))))))
  · exact Finset.mem_union_right _ (Finset.mem_union_right _ (Finset.mem_union_right _ (Finset.mem_union_right _
      (Finset.mem_union_right _ (Finset.mem_union_right _ (Finset.mem_union_right _ (Finset.mem_union_right _ ((mem_chunk c 7 i).mpr h))))))))

/-! ## Points-to along a union of disjoint element sets, as an equation -/

theorem pointsTo_union_eq {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  BI.equiv_iff.mp ⟨(pointsTo_union h).1, (pointsTo_union h).2⟩

/-! ## The result buffer: cut into its nine bands, at one contents -/

/-- Chunk r of device c's own rows, held whole at contents f. -/
def chunkPts (c : Dev nD) (r : Fin 8) (f : Buf (Elt F) ((chunkM c r).view.loc (c : Thread nD τ))) : sProp 𝕄 :=
  (chunkM c r).view.loc (c : Thread nD τ) ↦[(chunkM c r).view.set]{fullShare} f
/-- The rows of c's result that the partner fills, held whole at contents f. -/
def remPts (c : Dev nD) (f : Buf (Elt F) ((dstM (peer c)).view.loc (c : Thread nD τ))) : sProp 𝕄 :=
  (dstM (peer c)).view.loc (c : Thread nD τ) ↦[(dstM (peer c)).view.set]{fullShare} f

/-- The whole result buffer at contents f is its nine bands at f. -/
theorem out_eq (c : Dev nD) (f : Buf (Elt F) ((c : Thread nD τ).loc main_v1)) :
    ((((c : Thread nD τ).loc main_v1) ↦{fullShare} f) : sProp 𝕄)
      = iprop(remPts c f ∗ chunkPts c 0 f ∗ chunkPts c 1 f ∗ chunkPts c 2 f ∗ chunkPts c 3 f ∗ chunkPts c 4 f ∗ chunkPts c 5 f ∗ chunkPts c 6 f ∗ chunkPts c 7 f) := by
  have d67 : Disjoint (chunkM c 6).view.set (chunkM c 7).view.set := chunk_chunk_disjoint c 6 7 (by decide)
  have d5 : Disjoint (chunkM c 5).view.set ((chunkM c 6).view.set ∪ (chunkM c 7).view.set) :=
    Finset.disjoint_union_right.mpr ⟨chunk_chunk_disjoint c 5 6 (by decide), chunk_chunk_disjoint c 5 7 (by decide)⟩
  have d4 : Disjoint (chunkM c 4).view.set ((chunkM c 5).view.set ∪ ((chunkM c 6).view.set ∪ (chunkM c 7).view.set)) :=
    Finset.disjoint_union_right.mpr ⟨chunk_chunk_disjoint c 4 5 (by decide), Finset.disjoint_union_right.mpr
      ⟨chunk_chunk_disjoint c 4 6 (by decide), chunk_chunk_disjoint c 4 7 (by decide)⟩⟩
  have d3 : Disjoint (chunkM c 3).view.set ((chunkM c 4).view.set ∪ ((chunkM c 5).view.set ∪ ((chunkM c 6).view.set ∪ (chunkM c 7).view.set))) :=
    Finset.disjoint_union_right.mpr ⟨chunk_chunk_disjoint c 3 4 (by decide), Finset.disjoint_union_right.mpr
      ⟨chunk_chunk_disjoint c 3 5 (by decide), Finset.disjoint_union_right.mpr
      ⟨chunk_chunk_disjoint c 3 6 (by decide), chunk_chunk_disjoint c 3 7 (by decide)⟩⟩⟩
  have d2 : Disjoint (chunkM c 2).view.set ((chunkM c 3).view.set ∪ ((chunkM c 4).view.set ∪ ((chunkM c 5).view.set ∪ ((chunkM c 6).view.set ∪ (chunkM c 7).view.set)))) :=
    Finset.disjoint_union_right.mpr ⟨chunk_chunk_disjoint c 2 3 (by decide), Finset.disjoint_union_right.mpr
      ⟨chunk_chunk_disjoint c 2 4 (by decide), Finset.disjoint_union_right.mpr
      ⟨chunk_chunk_disjoint c 2 5 (by decide), Finset.disjoint_union_right.mpr
      ⟨chunk_chunk_disjoint c 2 6 (by decide), chunk_chunk_disjoint c 2 7 (by decide)⟩⟩⟩⟩
  have d1 : Disjoint (chunkM c 1).view.set ((chunkM c 2).view.set ∪ ((chunkM c 3).view.set ∪ ((chunkM c 4).view.set ∪ ((chunkM c 5).view.set ∪ ((chunkM c 6).view.set ∪ (chunkM c 7).view.set))))) :=
    Finset.disjoint_union_right.mpr ⟨chunk_chunk_disjoint c 1 2 (by decide), Finset.disjoint_union_right.mpr
      ⟨chunk_chunk_disjoint c 1 3 (by decide), Finset.disjoint_union_right.mpr
      ⟨chunk_chunk_disjoint c 1 4 (by decide), Finset.disjoint_union_right.mpr
      ⟨chunk_chunk_disjoint c 1 5 (by decide), Finset.disjoint_union_right.mpr
      ⟨chunk_chunk_disjoint c 1 6 (by decide), chunk_chunk_disjoint c 1 7 (by decide)⟩⟩⟩⟩⟩
  have d0 : Disjoint (chunkM c 0).view.set ((chunkM c 1).view.set ∪ ((chunkM c 2).view.set ∪ ((chunkM c 3).view.set ∪ ((chunkM c 4).view.set ∪ ((chunkM c 5).view.set ∪ ((chunkM c 6).view.set ∪ (chunkM c 7).view.set)))))) :=
    Finset.disjoint_union_right.mpr ⟨chunk_chunk_disjoint c 0 1 (by decide), Finset.disjoint_union_right.mpr
      ⟨chunk_chunk_disjoint c 0 2 (by decide), Finset.disjoint_union_right.mpr
      ⟨chunk_chunk_disjoint c 0 3 (by decide), Finset.disjoint_union_right.mpr
      ⟨chunk_chunk_disjoint c 0 4 (by decide), Finset.disjoint_union_right.mpr
      ⟨chunk_chunk_disjoint c 0 5 (by decide), Finset.disjoint_union_right.mpr
      ⟨chunk_chunk_disjoint c 0 6 (by decide), chunk_chunk_disjoint c 0 7 (by decide)⟩⟩⟩⟩⟩⟩
  have dR : Disjoint (dstM (peer c)).view.set ((chunkM c 0).view.set ∪ ((chunkM c 1).view.set ∪ ((chunkM c 2).view.set ∪ ((chunkM c 3).view.set ∪ ((chunkM c 4).view.set ∪ ((chunkM c 5).view.set ∪ ((chunkM c 6).view.set ∪ (chunkM c 7).view.set))))))) :=
    Finset.disjoint_union_right.mpr ⟨rem_chunk_disjoint c 0, Finset.disjoint_union_right.mpr
      ⟨rem_chunk_disjoint c 1, Finset.disjoint_union_right.mpr
      ⟨rem_chunk_disjoint c 2, Finset.disjoint_union_right.mpr
      ⟨rem_chunk_disjoint c 3, Finset.disjoint_union_right.mpr
      ⟨rem_chunk_disjoint c 4, Finset.disjoint_union_right.mpr
      ⟨rem_chunk_disjoint c 5, Finset.disjoint_union_right.mpr
      ⟨rem_chunk_disjoint c 6, rem_chunk_disjoint c 7⟩⟩⟩⟩⟩⟩⟩
  unfold remPts chunkPts
  rw [← bands_eq_univ c]
  show (((c : Thread nD τ).loc main_v1) ↦[(dstM (peer c)).view.set ∪ ((chunkM c 0).view.set ∪ ((chunkM c 1).view.set ∪ ((chunkM c 2).view.set ∪ ((chunkM c 3).view.set
    ∪ ((chunkM c 4).view.set ∪ ((chunkM c 5).view.set ∪ ((chunkM c 6).view.set ∪ (chunkM c 7).view.set)))))))]{fullShare} f : sProp 𝕄) = _
  rw [pointsTo_union_eq dR, pointsTo_union_eq d0, pointsTo_union_eq d1, pointsTo_union_eq d2, pointsTo_union_eq d3,
    pointsTo_union_eq d4, pointsTo_union_eq d5, pointsTo_union_eq d67]

/-- Cutting the result buffer into its nine bands. -/
theorem out_split (c : Dev nD) (f : Buf (Elt F) ((c : Thread nD τ).loc main_v1)) :
    ((((c : Thread nD τ).loc main_v1) ↦{fullShare} f) : sProp 𝕄)
      ⊢ iprop(remPts c f ∗ chunkPts c 0 f ∗ chunkPts c 1 f ∗ chunkPts c 2 f ∗ chunkPts c 3 f ∗ chunkPts c 4 f ∗ chunkPts c 5 f ∗ chunkPts c 6 f ∗ chunkPts c 7 f) :=
  Entails.of_eq (out_eq c f)

/-! ## The argument block: half a share of the copied columns set apart -/

/-- What stays of the first half share of c's argument block beside the columns its copy reads. -/
def xRest (c : Dev nD) : sProp 𝕄 :=
  ((srcM c).view.loc (c : Thread nD τ)) ↦[Finset.univ \ (srcM c).view.set]{fullShare.left} X m c

theorem x_split (c : Dev nD) :
    ((((c : Thread nD τ).loc main_arg0) ↦{fullShare} X m c) : sProp 𝕄)
      ⊣⊢ iprop(srcPts m c ∗ xRest m c ∗ (((c : Thread nD τ).loc main_arg0) ↦{fullShare.right} X m c)) := by
  have h1 : ((((c : Thread nD τ).loc main_arg0) ↦{fullShare} X m c) : sProp 𝕄)
      ⊣⊢ iprop((((c : Thread nD τ).loc main_arg0) ↦{fullShare.left} X m c) ∗ (((c : Thread nD τ).loc main_arg0) ↦{fullShare.right} X m c)) :=
    pointsTo_share (PosShare.mem_left_op_right fullShare)
  have h2 : ((((c : Thread nD τ).loc main_arg0) ↦{fullShare.left} X m c) : sProp 𝕄)
      ⊣⊢ iprop(srcPts m c ∗ xRest m c) :=
    pointsTo_split_subset (Finset.subset_univ _)
  exact h1.trans ((sep_congr_left h2).trans sep_assoc)

/-! ## Where the copies' views sit, by coordinates -/

theorem dst_emb_val0 (d : Dev nD) (y : S8192x1024.Idx) :
    (((dstM d).view.emb y : S16384x1024.Idx) 0).val = 8192 * (d.val / 4) + (y 0).val := by
  show k0_off1 d 0 + 1 * (y 0).val = _
  rw [k0_off1_eq]
  show 8192 * (d.val / 4) + 1 * (y 0).val = _
  omega
theorem dst_emb_val1 (d : Dev nD) (y : S8192x1024.Idx) :
    (((dstM d).view.emb y : S16384x1024.Idx) 1).val = (y 1).val := by
  show k0_off1 d 1 + 1 * (y 1).val = _
  rw [k0_off1_eq]
  show 0 + 1 * (y 1).val = _
  omega
theorem src_emb_val0 (d : Dev nD) (y : S8192x1024.Idx) :
    (((srcM d).view.emb y : S8192x2048.Idx) 0).val = (y 0).val := by
  show k0_off2 d 0 + 1 * (y 0).val = _
  rw [k0_off2_eq]
  show 0 + 1 * (y 0).val = _
  omega
theorem src_emb_val1 (d : Dev nD) (y : S8192x1024.Idx) :
    (((srcM d).view.emb y : S8192x2048.Idx) 1).val = 1024 - 1024 * (d.val / 4) + (y 1).val := by
  show k0_off2 d 1 + 1 * (y 1).val = _
  rw [k0_off2_eq]
  show 1024 - 1024 * (d.val / 4) + 1 * (y 1).val = _
  omega
theorem chunk_emb_val0 (c : Dev nD) (r : Fin 8) (y : S1024x1024.Idx) :
    (((chunkM c r).view.emb y : S16384x1024.Idx) 0).val = 8192 * (c.val / 4) + 1024 * r.val + (y 0).val := by
  show k0_off4 c (BitVec.ofNat 32 (1024 * r.val)) 0 + 1 * (y 0).val = _
  rw [k0_off4_eq]
  show 8192 * (c.val / 4) + 1024 * r.val + 1 * (y 0).val = _
  omega
theorem chunk_emb_val1 (c : Dev nD) (r : Fin 8) (y : S1024x1024.Idx) :
    (((chunkM c r).view.emb y : S16384x1024.Idx) 1).val = (y 1).val := by
  show k0_off4 c (BitVec.ofNat 32 (1024 * r.val)) 1 + 1 * (y 1).val = _
  rw [k0_off4_eq]
  show 0 + 1 * (y 1).val = _
  omega

/-! ## The final contents, band by band -/

/-- On the partner's rows the landed copy is the final contents: row 8192 (peer c / 4) + y₀, column y₁ holds the
    partner's block at (y₀, 1024 (c/4) + y₁). -/
theorem landed_final (c : Dev nD) : ∀ i ∈ (dstM (peer c)).view.set, landed m c i = finalO m c i := by
  intro i hi
  obtain ⟨y, rfl⟩ := View.exists_emb_of_mem_set _ hi
  have a0 := dst_emb_val0 (peer c) y
  have a1 := dst_emb_val1 (peer c) y
  have b0 := src_emb_val0 (peer c) y
  have b1 := src_emb_val1 (peer c) y
  have hy0 : (y 0).val < 8192 := (y 0).isLt
  have hy1 : (y 1).val < 1024 := (y 1).isLt
  have hp := peer_x c
  have hc8 : c.val < 8 := c.isLt
  have hc : c.val / 4 ≤ 1 := by omega
  unfold landed
  refine (View.write_emb_of_mem _ _ (Finset.mem_univ y)).trans ?_
  show X m (peer c) ((srcM (peer c)).view.emb y) = finalO m c ((dstM (peer c)).view.emb y)
  unfold finalO
  have hne : ¬ ((((dstM (peer c)).view.emb y : S16384x1024.Idx) 0).val / 8192 = c.val / 4) := by omega
  rw [if_neg hne]
  refine congrArg (X m (peer c)) (funext fun a => ?_)
  match a with
  | ⟨0, _⟩ =>
    refine Fin.ext ?_
    show (((srcM (peer c)).view.emb y : S8192x2048.Idx) 0).val = (((dstM (peer c)).view.emb y : S16384x1024.Idx) 0).val % 8192
    omega
  | ⟨1, _⟩ =>
    refine Fin.ext ?_
    show (((srcM (peer c)).view.emb y : S8192x2048.Idx) 1).val = 1024 * (c.val / 4) + (((dstM (peer c)).view.emb y : S16384x1024.Idx) 1).val
    omega

/-- On chunk r of the device's own rows the filled chunk is the final contents, whatever was there before. -/
theorem chunk_final (c : Dev nD) (r : Fin 8) (f : Buf (Elt F) ((c : Thread nD τ).loc main_v1)) :
    ∀ i ∈ (chunkM c r).view.set, (chunkM c r).view.write (Elt F) f (chunkFill m c r) Finset.univ i = finalO m c i := by
  intro i hi
  obtain ⟨y, rfl⟩ := View.exists_emb_of_mem_set _ hi
  have a0 := chunk_emb_val0 c r y
  have a1 := chunk_emb_val1 c r y
  have hy0 : (y 0).val < 1024 := (y 0).isLt
  have hy1 : (y 1).val < 1024 := (y 1).isLt
  have hr : r.val < 8 := r.isLt
  have hc8 : c.val < 8 := c.isLt
  have hc : c.val / 4 ≤ 1 := by omega
  refine (View.write_emb_of_mem _ _ (Finset.mem_univ y)).trans ?_
  show chunkFill m c r y = finalO m c ((chunkM c r).view.emb y)
  unfold finalO chunkFill
  have heq : (((chunkM c r).view.emb y : S16384x1024.Idx) 0).val / 8192 = c.val / 4 := by omega
  rw [if_pos heq]
  refine congrArg (X m c) (funext fun a => ?_)
  match a with
  | ⟨0, _⟩ =>
    refine Fin.ext ?_
    show 1024 * r.val + (y 0).val = (((chunkM c r).view.emb y : S16384x1024.Idx) 0).val % 8192
    omega
  | ⟨1, _⟩ =>
    refine Fin.ext ?_
    show 1024 * (c.val / 4) + (y 1).val = 1024 * (c.val / 4) + (((chunkM c r).view.emb y : S16384x1024.Idx) 1).val
    omega

/-! ## Putting the result buffer back, at the final contents -/

theorem out_join (c : Dev nD) (g : Fin 8 → Buf (Elt F) ((c : Thread nD τ).loc main_v1))
    (hg : ∀ r, ∀ i ∈ (chunkM c r).view.set, g r i = finalO m c i) :
    iprop(landedPts m c ∗ chunkPts c 0 (g 0) ∗ chunkPts c 1 (g 1) ∗ chunkPts c 2 (g 2) ∗ chunkPts c 3 (g 3) ∗ chunkPts c 4 (g 4)
        ∗ chunkPts c 5 (g 5) ∗ chunkPts c 6 (g 6) ∗ chunkPts c 7 (g 7))
      ⊢ ((((c : Thread nD τ).loc main_v1) ↦{fullShare} finalO m c) : sProp 𝕄) := by
  have eL : (landedPts m c : sProp 𝕄) = remPts c (finalO m c) := by
    unfold landedPts remPts; exact pointsTo_congr (landed_final m c)
  have eC : ∀ r : Fin 8, (chunkPts c r (g r) : sProp 𝕄) = chunkPts c r (finalO m c) := fun r => by
    unfold chunkPts; exact pointsTo_congr (hg r)
  rw [eL, eC 0, eC 1, eC 2, eC 3, eC 4, eC 5, eC 6, eC 7]
  exact Entails.of_eq (out_eq c (finalO m c)).symm

/-- info: 'Cert.Kernel.A2A.out_join' depends on axioms: [propext, Classical.choice, Quot.sound] -/
#guard_msgs in
#print axioms out_join

end Cert.Kernel.A2A

end
-- ==== Proof.KernelReads.lean ====
/-
  The all-to-all exchange: what the local copies read.

  Chunk r of a device's own rows is filled from its argument block X_c (8192 x 2048) through the 1024 x 1024 window
  at rows [1024 r, +1024), columns [1024 (c/4), +1024): reading X_c through that window gives, at (y₀, y₁), the
  entry (1024 r + y₀, 1024 (c/4) + y₁) of X_c, which is the chunk's filling `chunkFill`. One lemma over a window at
  any offsets equal to (1024 r, 1024 (c/4)), and its eight instances at the offsets the program computes.
-/
import proofs.«900621_g7700000000000622_dist_a2a_v7x_xyz2x2x2_x_m8192_n1024_f32_1_alg».proof.Proof.KernelRegions

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Reading the argument block through a 1024 x 1024 window whose offsets are (1024 r, 1024 (c/4)) gives chunk r's
    filling. -/
theorem xread_of_off (c : Dev nD) (r : Fin 8) (off : Fin 2 → Nat)
    (inb : ∀ a, off a + S1024x1024.size a ≤ S8192x2048.size a) (hoff : off = ![1024 * r.val, 1024 * (c.val / 4)]) :
    ((Memref.whole main_arg0).slice (Rect.unit (s := S8192x2048) off S1024x1024.size inb) (fun _ => rfl)).view.read (Elt F) (X m c)
      = chunkFill m c r := by
  funext y
  have o0 : off 0 = 1024 * r.val := by rw [hoff]; rfl
  have o1 : off 1 = 1024 * (c.val / 4) := by rw [hoff]; rfl
  refine (View.read_apply _ y).trans ?_
  show X m c (((Memref.whole main_arg0).slice (Rect.unit (s := S8192x2048) off S1024x1024.size inb) (fun _ => rfl)).view.emb y) = chunkFill m c r y
  unfold chunkFill
  refine congrArg (X m c) (funext fun a => ?_)
  match a with
  | ⟨0, _⟩ =>
    refine Fin.ext ?_
    show off 0 + 1 * (y 0).val = 1024 * r.val + (y 0).val
    omega
  | ⟨1, _⟩ =>
    refine Fin.ext ?_
    show off 1 + 1 * (y 1).val = 1024 * (c.val / 4) + (y 1).val
    omega

theorem xread_0 (c : Dev nD) :
    ((Memref.whole main_arg0).slice (Rect.unit (s := S8192x2048) (k0_off3 c) S1024x1024.size (k0_off3_inb c)) (fun _ => rfl)).view.read (Elt F) (X m c)
      = chunkFill m c 0 := xread_of_off m c 0 _ _ (k0_off3_eq c)
theorem xread_1 (c : Dev nD) :
    ((Memref.whole main_arg0).slice (Rect.unit (s := S8192x2048) (k0_off5 c) S1024x1024.size (k0_off5_inb c)) (fun _ => rfl)).view.read (Elt F) (X m c)
      = chunkFill m c 1 := xread_of_off m c 1 _ _ (k0_off5_eq c)
theorem xread_2 (c : Dev nD) :
    ((Memref.whole main_arg0).slice (Rect.unit (s := S8192x2048) (k0_off6 c) S1024x1024.size (k0_off6_inb c)) (fun _ => rfl)).view.read (Elt F) (X m c)
      = chunkFill m c 2 := xread_of_off m c 2 _ _ (k0_off6_eq c)
theorem xread_3 (c : Dev nD) :
    ((Memref.whole main_arg0).slice (Rect.unit (s := S8192x2048) (k0_off7 c) S1024x1024.size (k0_off7_inb c)) (fun _ => rfl)).view.read (Elt F) (X m c)
      = chunkFill m c 3 := xread_of_off m c 3 _ _ (k0_off7_eq c)
theorem xread_4 (c : Dev nD) :
    ((Memref.whole main_arg0).slice (Rect.unit (s := S8192x2048) (k0_off8 c) S1024x1024.size (k0_off8_inb c)) (fun _ => rfl)).view.read (Elt F) (X m c)
      = chunkFill m c 4 := xread_of_off m c 4 _ _ (k0_off8_eq c)
theorem xread_5 (c : Dev nD) :
    ((Memref.whole main_arg0).slice (Rect.unit (s := S8192x2048) (k0_off9 c) S1024x1024.size (k0_off9_inb c)) (fun _ => rfl)).view.read (Elt F) (X m c)
      = chunkFill m c 5 := xread_of_off m c 5 _ _ (k0_off9_eq c)
theorem xread_6 (c : Dev nD) :
    ((Memref.whole main_arg0).slice (Rect.unit (s := S8192x2048) (k0_off10 c) S1024x1024.size (k0_off10_inb c)) (fun _ => rfl)).view.read (Elt F) (X m c)
      = chunkFill m c 6 := xread_of_off m c 6 _ _ (k0_off10_eq c)
theorem xread_7 (c : Dev nD) :
    ((Memref.whole main_arg0).slice (Rect.unit (s := S8192x2048) (k0_off11 c) S1024x1024.size (k0_off11_inb c)) (fun _ => rfl)).view.read (Elt F) (X m c)
      = chunkFill m c 7 := xread_of_off m c 7 _ _ (k0_off11_eq c)

/-- A transfer that reads its source as it is moves what the source's view reads. -/
theorem readAs_same (x : S1024x1024.Idx → Elt F .f32) :
    (ReadAs.same : ReadAs (Elt F) S1024x1024 .f32 S1024x1024 .f32).apply x = x := rfl

/-- info: 'Cert.Kernel.A2A.xread_7' depends on axioms: [propext, Classical.choice, Quot.sound] -/
#guard_msgs in
#print axioms xread_7

end Cert.Kernel.A2A

end
-- ==== Proof.KernelBody.lean ====
/-
  The all-to-all exchange: one device's body.

  From its ghost state, its two arrays and its scratch slots, device c signals its partner's barrier cell (handing over
  the partner's rows of its own result), waits for its own (receiving the rows of the partner's result it fills),
  starts the remote copy of the partner's columns into them, moves its own columns chunk by chunk through the two
  slots into its own rows, and waits for its send and its receive. It ends with its result whole at `finalO`.
-/
import proofs.«900621_g7700000000000622_dist_a2a_v7x_xyz2x2x2_x_m8192_n1024_f32_1_alg».proof.Proof.KernelReads

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

omit [FloatOps F] in
/-- The rows a device hands its partner with its signal, named from the partner's side. -/
theorem rem_respell (c : Dev nD) :
    ((((dstM (peer c)).view.loc (c : Thread nD τ)) ↦[(dstM (peer c)).view.set]{fullShare} O₀ m c) : sProp 𝕄)
      = (((dstM (peer c)).view.loc (peer (peer c) : Thread nD τ)) ↦[(dstM (peer c)).view.set]{fullShare} O₀ m (peer (peer c))) := by
  rw [peer_peer]
omit [FloatOps F] in
theorem reached_respell (c : Dev nD) : (reached ER (recvCell c) 0 : sProp 𝕄) = reached ER (recvCell (peer (peer c))) 0 := by
  rw [peer_peer]

omit [FloatOps F] in
/-- The barrier duty's payload: the rows of the partner's result this device fills, as launched, and the partner's
    receive cell at round 0. -/
theorem payload_bar_own (c : Dev nD) (d : Unit) : (a2aRd (F := F) m).payload (barCell c) 0 d
    = iprop((((dstM c).view.loc (peer c : Thread nD τ)) ↦[(dstM c).view.set]{fullShare} O₀ m (peer c)) ∗ reached ER (recvCell (peer c)) 0) := by
  rw [payload_bar]; rfl
omit [FloatOps F] in
/-- The partner's receive duty's payload, from the sending device's side: the copy's destination rewritten. -/
theorem payload_recv_peer (c : Dev nD) (d : Unit) : (a2aRd (F := F) m).payload (recvCell (peer c)) 0 d
    = (((dstM c).view.loc (peer c : Thread nD τ)) ↦[(dstM c).view.set]{fullShare}
        (dstM c).view.write (Elt F) (O₀ m (peer c)) ((srcM c).view.read (Elt F) (X m c)) Finset.univ) := by
  rw [payload_recv]; unfold recvPay landedPts landed; rw [peer_peer]
omit [FloatOps F] in
theorem payload_send_own (c : Dev nD) (d : Unit) : (a2aRd (F := F) m).payload (sendCell c) 0 d
    = (((srcM c).view.loc (c : Thread nD τ)) ↦[(srcM c).view.set]{fullShare.left} X m c) := by
  rw [payload_send]; rfl

/-- A chunk of the device's own rows, filled whole with its columns of the matching rows of its block, holds the final
    contents there. -/
theorem chunk_done (c : Dev nD) (r : Fin 8) (p : S1024x1024.Idx → Elt F .f32) (hp : p = chunkFill m c r) :
    ((((chunkM c r).view.loc (c : Thread nD τ)) ↦[(chunkM c r).view.set]{fullShare}
        (chunkM c r).view.writes (Elt F) (O₀ m c) [⟨Rect.whole S1024x1024, p⟩]) : sProp 𝕄)
      = chunkPts c r (finalO m c) := by
  subst hp
  unfold chunkPts
  refine pointsTo_congr fun i hi => ?_
  rw [← View.write_univ_eq_writes_whole _ _ [] _]
  exact chunk_final m c r _ i hi

/-- What the receive duty hands over is the partner's rows at the final contents. -/
theorem landed_done (c : Dev nD) : ((a2aRd (F := F) m).payload (recvCell c) 0 () : sProp 𝕄) = remPts c (finalO m c) := by
  rw [payload_recv]; unfold recvPay landedPts remPts; exact pointsTo_congr (landed_final m c)

attribute [local sl_rounds] duties_bar duties_send duties_recv amount_bar amount_send amount_recv
  payload_bar_own payload_send_own payload_recv_peer expect_bar expect_send expect_recv
attribute [local sl_canon] dev1_eq dev2_eq

set_option maxHeartbeats 3200000 in
set_option maxRecDepth 8000 in
/-- The library's body obligation on device c. -/
theorem body_obligation (c : Dev nD) : BodyObligation (dats (F := F) m 0 c) (defs₀ (F := F)) 𝒱₀ () Set.univ := fun t => by
  rw [fin_N t]
  rw [show (Finset.univ : Finset (Fin cfg0.W)) = ∅ from rfl, bigSep_empty, bigSep_empty]
  show iprop(Φ₀ m c ∗ (dats m 0 c).owesAt () t₀.castSucc ∗ emp) ⊢ wp frame (wpE (defs₀ (F := F)) 𝒱₀ c none) Set.univ
    (cc0_body (Memref.whole main_arg0) (Memref.isWhole_whole _) (Memref.whole main_v1) (Memref.isWhole_whole _)
      (Memref.whole cc0_scratch0) (Memref.isWhole_whole _) cc0_scratch1 cc0_scratch2 cc0_scratch3 cc0_scratch4)
    (fun _ => iprop(Φ₁ m c ∗ (dats m 0 c).owesAt () t₀.succ ∗ emp))
  unfold Φ₀ start ghost invs locals Dat.owesAt Pipeline.owesWithin
  rw [show (dats m 0 c).owed t₀.castSucc = Ow c from rfl]
  iintro ⟨⟨⟨⟨%K, ⟨#HIbar, #HIsnd, #HIrcv, #HIbarP, #HIrcvP⟩, HatB, HatS, HatV, #HrBP, #HrVP, #HrS, #HrV, HtBP, HtVP, HtS⟩, HcB, HcV, #Hlev,
    ⟨Hl0, Hl1, Hl2, Hl3⟩, Hxw, How⟩, ⟨%f0, Hscr0⟩⟩, ⟨%W, %hW, HO⟩, -⟩
  -- the argument block: half a share of the partner's columns for the remote copy, half a share of the whole for the local ones
  ihave Hxs := (x_split m c).1 $$ Hxw
  icases Hxs with ⟨Hsrc, Hxrest, Hx0⟩
  -- the result: the partner's rows and the eight chunks of this device's own rows
  ihave Hos := (out_split c (O₀ m c)) $$ How
  icases Hos with ⟨Hrem, Hk0, Hk1, Hk2, Hk3, Hk4, Hk5, Hk6, Hk7⟩
  unfold srcPts remPts chunkPts Ow
  ihave Hx := (Entails.of_eq (show ((((c : Thread nD τ).loc main_arg0) ↦{fullShare.right} X m c) : sProp 𝕄)
      = ((xM.view.loc (c : Thread nD τ)) ↦{fullShare.right} X m c) from rfl)) $$ Hx0
  ihave Hscr := (Entails.of_eq (show ((((c : Thread nD τ).loc cc0_scratch0) ↦{fullShare} f0) : sProp 𝕄)
      = ((vM.view.loc (c : Thread nD τ)) ↦{fullShare} f0) from rfl)) $$ Hscr0
  have hmw := mayWait_bar (F := F) c
  ihave Hrem' := (Entails.of_eq (rem_respell m c)) $$ Hrem
  ihave Htmp := (Entails.of_eq (reached_respell (F := F) c)) $$ HrV
  icases Htmp with #HrV'
  sl_exec (disch := first | exact dev2_eq _ | exact dev1_eq _ | simp only [dev1_eq, dev2_eq])
  -- the send and receive cells close: their counters at zero are the device's again
  imod (Rounds.cell_close ER (a2aRd m) (Set.mem_univ (K (c, 1))) (fun h => h) (R := 1) (duties_later m (sendCell c))) $$ [HatS] with HzS
  · isplitr; · iexact HIsnd
    iexact HatS
  imod (Rounds.cell_close ER (a2aRd m) (Set.mem_univ (K (c, 2))) (fun h => h) (R := 1) (duties_later m (recvCell c))) $$ [HatV] with HzV
  · isplitr; · iexact HIrcv
    iexact HatV
  -- the argument block whole again
  ihave Hxw := (x_split m c).2 $$ [HatS_pay1 Hxrest Hx]
  · unfold srcPts
    isplitl [HatS_pay1]; · iexact HatS_pay1
    isplitl [Hxrest]; · iexact Hxrest
    iexact Hx
  -- the result: every band at the final contents, then whole
  ihave Hrem2 := (Entails.of_eq (landed_done m c)) $$ HatV_pay1
  ihave Hk0' := (Entails.of_eq (chunk_done m c 0 (body_obligation.sl.dma0_1 m c f0) (by sl_unfold_run_names; simp only [ReadAs.apply_same]; rw [View.read_write_univ]; exact xread_0 m c))) $$ Hk0
  ihave Hk1' := (Entails.of_eq (chunk_done m c 1 (body_obligation.sl.dma0_3 m c f0) (by sl_unfold_run_names; simp only [ReadAs.apply_same]; rw [View.read_write_univ]; exact xread_1 m c))) $$ Hk1
  ihave Hk2' := (Entails.of_eq (chunk_done m c 2 (body_obligation.sl.dma0_5 m c f0) (by sl_unfold_run_names; simp only [ReadAs.apply_same]; rw [View.read_write_univ]; exact xread_2 m c))) $$ Hk2
  ihave Hk3' := (Entails.of_eq (chunk_done m c 3 (body_obligation.sl.dma0_7 m c f0) (by sl_unfold_run_names; simp only [ReadAs.apply_same]; rw [View.read_write_univ]; exact xread_3 m c))) $$ Hk3
  ihave Hk4' := (Entails.of_eq (chunk_done m c 4 (body_obligation.sl.dma0_9 m c f0) (by sl_unfold_run_names; simp only [ReadAs.apply_same]; rw [View.read_write_univ]; exact xread_4 m c))) $$ Hk4
  ihave Hk5' := (Entails.of_eq (chunk_done m c 5 (body_obligation.sl.dma0_11 m c f0) (by sl_unfold_run_names; simp only [ReadAs.apply_same]; rw [View.read_write_univ]; exact xread_5 m c))) $$ Hk5
  ihave Hk6' := (Entails.of_eq (chunk_done m c 6 (body_obligation.sl.dma0_13 m c f0) (by sl_unfold_run_names; simp only [ReadAs.apply_same]; rw [View.read_write_univ]; exact xread_6 m c))) $$ Hk6
  ihave Hk7' := (Entails.of_eq (chunk_done m c 7 (body_obligation.sl.dma0_15 m c f0) (by sl_unfold_run_names; simp only [ReadAs.apply_same]; rw [View.read_write_univ]; exact xread_7 m c))) $$ Hk7
  ihave How := (Entails.of_eq (out_eq c (finalO m c)).symm) $$ [Hrem2 Hk0' Hk1' Hk2' Hk3' Hk4' Hk5' Hk6' Hk7']
  · isplitl [Hrem2]; · iexact Hrem2
    isplitl [Hk0']; · iexact Hk0'
    isplitl [Hk1']; · iexact Hk1'
    isplitl [Hk2']; · iexact Hk2'
    isplitl [Hk3']; · iexact Hk3'
    isplitl [Hk4']; · iexact Hk4'
    isplitl [Hk5']; · iexact Hk5'
    isplitl [Hk6']; · iexact Hk6'
    iexact Hk7'
  sl_step
  unfold Φ₁ locals
  isplitl [Hxw How Hscr Hl0 Hl1 Hl2 Hl3 HzS HzV]
  · isplitl [Hxw]; · iexact Hxw
    isplitl [How]; · iexact How
    isplitl [Hscr]; · iexists _; iexact Hscr
    isplitl [Hl0 Hl1 Hl2 Hl3]
    · isplitl [Hl0]; · iexact Hl0
      isplitl [Hl1]; · iexact Hl1
      isplitl [Hl2]; · iexact Hl2
      iexact Hl3
    isplitl [HzS]; · iexact HzS
    iexact HzV
  isplitl [HO]
  · iexists _
    isplitr
    on_goal 2 => iexact HO
    ipureintro; exact fun _ _ => Or.inl trivial
  iempintro

end Body

/-- info: 'Cert.Kernel.A2A.body_obligation' depends on axioms: [propext, Classical.choice, Quot.sound] -/
#guard_msgs in #print axioms body_obligation

end Cert.Kernel.A2A

end
-- ==== Proof.KernelIdealProto.lean ====
/-
  The all-to-all exchange along the mesh axis x, on the 2 x 2 x 2 mesh: the protocol's vocabulary.

  Device c sits at x-coordinate c / 4 and its partner along x is peer c = c ± 4. Each device holds a row block
  X_c (8192 x 2048) of the whole array and must end with a column block (16384 x 1024) of it. The rows
  [8192 (c/4), +8192) of the result are filled locally, eight chunks of 1024 rows through a two-slot buffer;
  the other 8192 rows are filled by the partner's one remote copy. Three cells per device carry the
  cross-device protocol: the barrier cell (one unit, paid by the partner's signal, handing over the rows of the
  partner's result that this device will fill), the send cell and the receive cell of the remote copy.
-/
import proofs.«900621_g7700000000000622_dist_a2a_v7x_xyz2x2x2_x_m8192_n1024_f32_1_alg».proof.Proof.Gen.KernelIdeal
import proofs.«900621_g7700000000000622_dist_a2a_v7x_xyz2x2x2_x_m8192_n1024_f32_1_alg».proof.Proof.Gen.KernelIdeal.Skeleton
import proofs.«900621_g7700000000000622_dist_a2a_v7x_xyz2x2x2_x_m8192_n1024_f32_1_alg».proof.Proof.Gen.KernelIdeal.Launch
import proofs.«900621_g7700000000000622_dist_a2a_v7x_xyz2x2x2_x_m8192_n1024_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's own (one duty per round) -/

abbrev UB : Type := URounds (GSem nD τ sig) Unit
/-- The pipeline library's copy, the protocol's copy, and the counters the local copies' invariants take their tokens from. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

instance ER_landsIn : (ER (F := F)).LandsIn (upEmb : UEmb _ (MT nD τ sig Unit (Elt F) ℕ UU ℕ)) := by
  unfold ER; infer_instance

variable (m : (ℓ : Loc nD τ sig) → Buf (Elt F) ℓ) (ρ : Dev nD → PrngReg)

/-! ## The partner along x -/

def peer (c : Dev nD) : Dev nD := ⟨(c.val + 4) % 8, Nat.mod_lt _ (by decide)⟩

theorem peer_peer (c : Dev nD) : peer (peer c) = c := by revert c; decide
theorem peer_ne (c : Dev nD) : peer c ≠ c := by revert c; decide
theorem peer_x (c : Dev nD) : (peer c).val / 4 = 1 - c.val / 4 := by revert c; decide

def pairing : Dev nD ≃ Dev nD := ⟨peer, peer, peer_peer, peer_peer⟩

/-- Both device chains of the body (the signal's and the remote copy's) name the partner. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

/-! ## The memrefs and the cells -/

abbrev xM : Memref sig .tc .hbm S8192x2048 .f32 := Memref.whole main_arg0
abbrev oM : Memref sig .tc .hbm S16384x1024 .f32 := Memref.whole main_v1
abbrev vM : Memref sig .tc .vmem S2x1024x1024 .f32 := Memref.whole cc0_scratch0

/-- The remote copy's source on the firing device: the partner's 1024 columns of its row block. -/
abbrev srcM (c : Dev nD) : Memref sig .tc .hbm S8192x1024 .f32 :=
  xM.slice (Rect.unit (s := S8192x2048) (k0_off2 c) S8192x1024.size (k0_off2_inb c)) (fun _ => rfl)
/-- The remote copy's destination, a memref of the PARTNER's result: the firing device's 8192 rows of it. -/
abbrev dstM (c : Dev nD) : Memref sig .tc .hbm S8192x1024 .f32 :=
  oM.slice (Rect.unit (s := S16384x1024) (k0_off1 c) S8192x1024.size (k0_off1_inb c)) (fun _ => rfl)
/-- Local chunk r of the result: rows [8192 (c/4) + 1024 r, +1024). -/
abbrev chunkM (c : Dev nD) (r : Fin 8) : Memref sig .tc .hbm S1024x1024 .f32 :=
  oM.slice (Rect.unit (s := S16384x1024) (k0_off4 c (BitVec.ofNat 32 (1024 * r.val))) S1024x1024.size (k0_off4_inb c r)) (fun _ => rfl)

abbrev barS : Sem sig := (SemArray.scalar (sig.barrier 0 rfl) : Sems sig S_).sem
abbrev sendS : DmaSems sig S_ := cc0_scratch3
abbrev recvS : DmaSems sig S_ := cc0_scratch4

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The protocol's three cells of a device: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of the remote copy (it does not depend on the device: same buffer, same shape). -/
abbrev N : ℕ := (dstM (0 : Dev nD)).view.dmaCredit
theorem N_pos : 0 < N := View.dmaCredit_pos _ (by decide)
theorem N_eq (c : Dev nD) : (dstM c).view.dmaCredit = N := rfl

/-! ## Contents -/

/-- Device c's row block of the argument, as launched. -/
abbrev X (c : Dev nD) : Buf (Elt F) ((c : Thread nD τ).loc main_arg0) := m ((c : Thread nD τ).loc main_arg0)
/-- Device c's result buffer, as launched. -/
abbrev O₀ (c : Dev nD) : Buf (Elt F) ((c : Thread nD τ).loc main_v1) := m ((c : Thread nD τ).loc main_v1)

/-- What c's result holds once the partner's copy has landed in it: the partner's columns block written over the
    partner's rows. -/
def landed (c : Dev nD) : Buf (Elt F) ((dstM (peer c)).view.loc (c : Thread nD τ)) :=
  (dstM (peer c)).view.write (Elt F) (O₀ m c) ((srcM (peer c)).view.read (Elt F) (X m (peer c))) Finset.univ

/-- The rows of the PARTNER's result that device c's copy fills, at contents f. -/
def dstPts (c : Dev nD) (f : Buf (Elt F) ((dstM c).view.loc (peer c : Thread nD τ))) : sProp 𝕄 :=
  (dstM c).view.loc (peer c : Thread nD τ) ↦[(dstM c).view.set]{fullShare} f
/-- The columns of c's argument block that its copy reads, half a share of them. -/
def srcPts (c : Dev nD) : sProp 𝕄 :=
  (srcM c).view.loc (c : Thread nD τ) ↦[(srcM c).view.set]{fullShare.left} X m c
/-- The rows of c's own result that the partner's copy fills, once it has landed. -/
def landedPts (c : Dev nD) : sProp 𝕄 :=
  (dstM (peer c)).view.loc (c : Thread nD τ) ↦[(dstM (peer c)).view.set]{fullShare} landed m c

/-! ## The schedule: one round, one duty per cell -/

/-- The partner's signal hands device c the rows of the partner's result it will fill, as launched, and that the
    partner's receive cell is at round 0. -/
def barPay (c : Dev nD) : sProp 𝕄 := iprop(dstPts c (O₀ m (peer c)) ∗ reached ER (recvCell (peer c)) 0)
def recvPay (c : Dev nD) : sProp 𝕄 := landedPts m c
def sendPay (c : Dev nD) : sProp 𝕄 := srcPts m c

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

def a2aRd : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay m g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance dstPts_storable (c : Dev nD) (f) : BI.Storable (upEmb : UEmb _ 𝕄) (dstPts (F := F) c f) := by unfold dstPts; infer_instance
instance srcPts_storable (c : Dev nD) : BI.Storable (upEmb : UEmb _ 𝕄) (srcPts (F := F) m c) := by unfold srcPts; infer_instance
instance landedPts_storable (c : Dev nD) : BI.Storable (upEmb : UEmb _ 𝕄) (landedPts (F := F) m c) := by unfold landedPts; infer_instance

instance a2aRd_payload_storable (g : GSem nD τ sig) (r : ℕ) (d : Unit) :
    BI.Storable (upEmb : UEmb _ 𝕄) ((a2aRd (F := F) m).payload g r d) := by
  show BI.Storable upEmb (if g.2 = .reg barS then barPay m g.1.1 else if g.2 = .dma recvS.sem then recvPay m g.1.1
    else if g.2 = .dma sendS.sem then sendPay m g.1.1 else iprop(emp))
  unfold barPay recvPay sendPay
  (repeat' split) <;> infer_instance

/-- A round whose only duty is d expects that duty's amount (over any schedule). -/
theorem expect_of_single {G : Type} [DecidableEq G] {D : Type} [DecidableEq D] {M : Type} [URA M]
    (Rd : Rounds.Schedule G D M) (g : G) (r : ℕ) (d : D) (n : ℕ)
    (hd : Rd.duties g r = {d}) (ha : Rd.amount g r d = n) : Rd.expect g r = n := by
  unfold Schedule.expect Schedule.amountOf; rw [hd, Finset.sum_singleton, ha]

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

omit [FloatOps F] in
theorem duties_bar : (a2aRd (F := F) m).duties (barCell c) 0 = {()} := by
  dsimp only [a2aRd]; exact if_pos ⟨rfl, .inl ⟨rfl, rfl⟩⟩
omit [FloatOps F] in
theorem duties_send : (a2aRd (F := F) m).duties (sendCell c) 0 = {()} := by
  dsimp only [a2aRd]; exact if_pos ⟨rfl, .inr ⟨rfl, .inl rfl⟩⟩
omit [FloatOps F] in
theorem duties_recv : (a2aRd (F := F) m).duties (recvCell c) 0 = {()} := by
  dsimp only [a2aRd]; exact if_pos ⟨rfl, .inr ⟨rfl, .inr rfl⟩⟩
omit [FloatOps F] in
theorem duties_later (g : GSem nD τ sig) : ∀ r, 1 ≤ r → (a2aRd (F := F) m).duties g r = ∅ :=
  fun r hr => by dsimp only [a2aRd]; rw [if_neg fun h => by omega]

omit [FloatOps F] in
theorem amount_bar (d : Unit) : (a2aRd (F := F) m).amount (barCell c) 0 d = 1 := by dsimp only [a2aRd]; exact if_pos rfl
omit [FloatOps F] in
theorem amount_send (d : Unit) : (a2aRd (F := F) m).amount (sendCell c) 0 d = N := by dsimp only [a2aRd]; exact if_neg send_ne_bar
omit [FloatOps F] in
theorem amount_recv (d : Unit) : (a2aRd (F := F) m).amount (recvCell c) 0 d = N := by dsimp only [a2aRd]; exact if_neg recv_ne_bar

omit [FloatOps F] in
theorem expect_bar : (a2aRd (F := F) m).expect (barCell c) 0 = 1 :=
  expect_of_single _ _ _ _ _ (duties_bar m c) (amount_bar m c ())
omit [FloatOps F] in
theorem expect_send : (a2aRd (F := F) m).expect (sendCell c) 0 = N :=
  expect_of_single _ _ _ _ _ (duties_send m c) (amount_send m c ())
omit [FloatOps F] in
theorem expect_recv : (a2aRd (F := F) m).expect (recvCell c) 0 = N :=
  expect_of_single _ _ _ _ _ (duties_recv m c) (amount_recv m c ())

omit [FloatOps F] in
theorem payload_bar (d : Unit) : (a2aRd (F := F) m).payload (barCell c) 0 d = barPay m c := by dsimp only [a2aRd]; rw [if_pos rfl]
omit [FloatOps F] in
theorem payload_send (d : Unit) : (a2aRd (F := F) m).payload (sendCell c) 0 d = sendPay m c := by
  dsimp only [a2aRd]; rw [if_neg send_ne_bar, if_neg send_ne_recv, if_pos rfl]
omit [FloatOps F] in
theorem payload_recv (d : Unit) : (a2aRd (F := F) m).payload (recvCell c) 0 d = recvPay m c := by
  dsimp only [a2aRd]; rw [if_neg recv_ne_bar, if_pos rfl]

omit [FloatOps F] in
theorem rest_bar : bigSep ((a2aRd (F := F) m).duties (barCell c) 0 \ ∅) (fun d => (a2aRd (F := F) m).payload (barCell c) 0 d) = barPay m c := by
  rw [Finset.sdiff_empty, duties_bar, bigSep_singleton, payload_bar]
omit [FloatOps F] in
theorem rest_send : bigSep ((a2aRd (F := F) m).duties (sendCell c) 0 \ ∅) (fun d => (a2aRd (F := F) m).payload (sendCell c) 0 d) = sendPay m c := by
  rw [Finset.sdiff_empty, duties_send, bigSep_singleton, payload_send]
omit [FloatOps F] in
theorem rest_recv : bigSep ((a2aRd (F := F) m).duties (recvCell c) 0 \ ∅) (fun d => (a2aRd (F := F) m).payload (recvCell c) 0 d) = recvPay m c := by
  rw [Finset.sdiff_empty, duties_recv, bigSep_singleton, payload_recv]

end Sched

/-! ## What each device owes at launch; the levels -/

/-- Device c owes its partner's receive cell the copy's credit and its partner's barrier cell one unit (the signal,
    paid first, peels the last summand). -/
def Ow (c : Dev nD) : CellTallies nD τ sig Unit := tallyAt (recvCell (peer c)) () N + tallyAt (barCell (peer c)) () 1

def Lset (g : GSem nD τ sig) : Finset Unit := if g.1.2 = .tc then {()} else ∅
/-- barrier cells at 1, receive cells at 2, everything else (the local copies' cells, the send cells) at 0. -/
def lv (g : GSem nD τ sig) (_ : Unit) : ℕ := if g.2 = .reg barS then 1 else if g.2 = .dma recvS.sem then 2 else 0

theorem Lset_of_ne (g : GSem nD τ sig) (h : g.1.2 ≠ .tc) : Lset g = ∅ := if_neg h
theorem Lset_tc (c : Dev nD) (sm : SemLoc sig) : Lset ((c : Thread nD τ), sm) = {()} := if_pos rfl

omit [FloatOps F] in
/-- At its barrier wait a device owes its partner's receive credit only: a receive cell, above the barrier cells. -/
theorem mayWait_bar (c : Dev nD) :
    (levAts Lset lv : sProp 𝕄) ⊢ MayWait (c : Thread nD τ) (.reg barS) () (tallyAt (recvCell (peer c)) () N) :=
  MayOwe.of_cut (L := Lset) (lev := lv) 1 (fun p hp => by rw [Finset.mem_singleton.mp hp, Lset_tc]; exact Finset.mem_singleton_self _)
    (fun g u hg => by
      rw [tallyAt_apply] at hg
      by_cases h : g = recvCell (peer c) ∧ u = ()
      · rw [h.1, Lset_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

end Cert.KernelIdeal.A2A

end
-- ==== Proof.KernelIdealData.lean ====
/-
  The all-to-all exchange: what a device's body starts from and ends with.

  A device starts holding its argument block and its result buffer whole, its scratch slots, the six DMA cells of the
  kernel (four for the local copies, at zero; the send and receive cells under the protocol's invariants), and its
  share of the protocol's ghost state. It ends holding the argument block unchanged and the result buffer at
  `finalO`: on the partner's rows what the partner's copy wrote, on its own rows its own columns of its block.
-/
import proofs.«900621_g7700000000000622_dist_a2a_v7x_xyz2x2x2_x_m8192_n1024_f32_1_alg».proof.Proof.KernelIdealProto

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The kernel's own cells -/

/-- The kernel's six scoped DMA semaphores: the reads' two, the writes' two, send, receive. -/
abbrev osem : Fin 6 → SemLoc sig := fun k => .dma ⟨k.val, k.isLt⟩
/-- A local copy's cell on device c. -/
abbrev lcell (c : Dev nD) (k : ℕ) (h : k < 6 := by decide) : GSem nD τ sig := ((c : Thread nD τ), .dma ⟨k, h⟩)

/-- The four cells of the local copies, at zero. -/
def locals (c : Dev nD) : sProp 𝕄 :=
  iprop(semVal (lcell c 0) 0 ∗ semVal (lcell c 1) 0 ∗ semVal (lcell c 2) 0 ∗ semVal (lcell c 3) 0)

/-! ## The result -/

/-- Chunk r of device c's own rows once filled: its columns of rows [1024 r, +1024) of its argument block. -/
def chunkFill (c : Dev nD) (r : Fin 8) : S1024x1024.Idx → Elt F .f32 := fun i =>
  X m c (fun a => match a with
    | ⟨0, _⟩ => ⟨1024 * r.val + (i 0).val, by have h1 : (i 0).val < 1024 := (i 0).isLt; have h2 : r.val < 8 := r.isLt; show _ < 8192; omega⟩
    | ⟨1, _⟩ => ⟨1024 * (c.val / 4) + (i 1).val, by have h1 : (i 1).val < 1024 := (i 1).isLt; have h2 : c.val < 8 := c.isLt; show _ < 2048; omega⟩)

/-- The result buffer of device c at the end: row i holds, in column j, entry (i mod 8192, 1024 (c/4) + j) of the
    argument block of the device whose x-coordinate is i / 8192 — the device itself or its partner. -/
def finalO (c : Dev nD) : Buf (Elt F) ((c : Thread nD τ).loc main_v1) := fun i =>
  (if (i 0).val / 8192 = c.val / 4 then X m c else X m (peer c)) (fun a => match a with
    | ⟨0, _⟩ => ⟨(i 0).val % 8192, Nat.mod_lt _ (by decide)⟩
    | ⟨1, _⟩ => ⟨1024 * (c.val / 4) + (i 1).val, by have h1 : (i 1).val < 1024 := (i 1).isLt; have h2 : c.val < 8 := c.isLt; show _ < 2048; omega⟩)

/-! ## The ghost state -/

/-- The cells' invariants device c's body opens, under the names K the launch allocated them at: its own three, its
    partner's barrier cell (its signal) and receive cell (its copy). -/
def invs (K : Dev nD × Fin 3 → ℕ) (c : Dev nD) : sProp 𝕄 :=
  iprop(cellInv ER (a2aRd m) (K (c, 0)) (barCell c) ∗ cellInv ER (a2aRd m) (K (c, 1)) (sendCell c) ∗ cellInv ER (a2aRd m) (K (c, 2)) (recvCell c)
    ∗ cellInv ER (a2aRd m) (K (peer c, 0)) (barCell (peer c)) ∗ cellInv ER (a2aRd m) (K (peer c, 2)) (recvCell (peer c)))

instance invs_persistent (K : Dev nD × Fin 3 → ℕ) (c : Dev nD) : BI.Persistent (invs m K c) := by unfold invs; infer_instance

/-- Device c's ghost state at the start: the invariants; its positions at round 0 of its three cells; round 0 reached
    on the cells it pays and on its own send and receive cells; the three duty tokens it pays with. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What the launch hands device c outside its scoped storage: the ghost state at some names, the launch credit of its
    barrier and receive cells, the levels, the local copies' cells at zero, and its two arrays as launched. -/
def start (c : Dev nD) : sProp 𝕄 :=
  iprop((∃ K, ghost m K c) ∗ cred (tallyAt (barCell c) () 1) ∗ cred (tallyAt (recvCell c) () N) ∗ levAts Lset lv
    ∗ locals c
    ∗ (((c : Thread nD τ).loc main_arg0) ↦{fullShare} X m c) ∗ (((c : Thread nD τ).loc main_v1) ↦{fullShare} O₀ m c))

/-- Before the body: that and the scratch slots at some contents. -/
def Φ₀ (c : Dev nD) : sProp 𝕄 :=
  iprop(start m c ∗ ∃ f : Buf (Elt F) ((c : Thread nD τ).loc cc0_scratch0), ((c : Thread nD τ).loc cc0_scratch0) ↦{fullShare} f)

/-- After the body: the argument block unchanged, the result at `finalO`, the scratch slots, and all six cells back at
    zero (the send and receive cells closed). -/
def Φ₁ (c : Dev nD) : sProp 𝕄 :=
  iprop((((c : Thread nD τ).loc main_arg0) ↦{fullShare} X m c) ∗ (((c : Thread nD τ).loc main_v1) ↦{fullShare} finalO m c)
    ∗ (∃ f : Buf (Elt F) ((c : Thread nD τ).loc cc0_scratch0), ((c : Thread nD τ).loc cc0_scratch0) ↦{fullShare} f)
    ∗ locals c ∗ semVal (sendCell c) 0 ∗ semVal (recvCell c) 0)

/-- The pipeline's proof data: the call has no window; one point. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => Ow c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelIdeal.A2A

end
-- ==== Proof.KernelIdealLaunch.lean ====
/-
  The all-to-all exchange: from one device's body to the run of the whole mesh.

  The launch element is dealt out device by device: the round state, the position and the round-0 record of each of a
  device's three protocol cells, and one duty token per cell. The barrier token and the receive token of a device go
  to its partner, who pays those duties; the send token stays with the device. Every device's seven counters arrive at
  zero: the barrier, send and receive cells are closed under their invariants, all devices' at once, and the four cells
  of the local copies pass through untouched. A device's launch credit is one unit on its barrier cell and the remote
  copy's credit on its receive cell, both owed by its partner alone. At the end each device's two arrays are read off
  the final memory: the argument block as launched, the result at the closed form of the data module.
-/
import proofs.«900621_g7700000000000622_dist_a2a_v7x_xyz2x2x2_x_m8192_n1024_f32_1_alg».proof.Proof.KernelIdealData

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

theorem ownSemFacts : Pipeline.OwnSemFacts cfg0.spec osem := by decide

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- The 8 × 3 protocol cells. -/
def ringCells : Finset (GSem nD τ sig) := Finset.univ.map ⟨kcell, kcell_injective⟩

/-- One duty token per cell: round 0, the one duty. -/
abbrev tokOf (ck : Dev nD × Fin 3) : GSem nD τ sig × ℕ × Unit := (kcell ck, 0, ())
theorem tokOf_injective : Function.Injective (tokOf : Dev nD × Fin 3 → GSem nD τ sig × ℕ × Unit) :=
  fun _ _ h => kcell_injective (congrArg Prod.fst h)
def ringToks : Finset (GSem nD τ sig × ℕ × Unit) := Finset.univ.map ⟨tokOf, tokOf_injective⟩

def u₀ : UU :=
  (initOf (Pipeline.cells cfgs cellOf_inj) (Pipeline.launchToks cfgs cellOf_inj), (initOf ringCells ringToks, 1))

/-- The duty tokens of device c's own cells. -/
def toks (c : Dev nD) : sProp 𝕄 :=
  iprop(dutyTok ER (barCell c) 0 () ∗ dutyTok ER (sendCell c) 0 () ∗ dutyTok ER (recvCell c) 0 ())

/-- What the launch element deals device c. -/
def G (c : Dev nD) : sProp 𝕄 :=
  iprop((bigSep Finset.univ fun k : Fin 3 => roundState ER (a2aRd m) (kcell (c, k)) 0)
    ∗ (bigSep Finset.univ fun k : Fin 3 => iprop(atPos ER (kcell (c, k)) 0 ∅ 0 ∗ reached ER (kcell (c, k)) 0)) ∗ toks c)

/-- What the global step makes of it, with the local copies' cells passed through. -/
def G' (c : Dev nD) : sProp 𝕄 := iprop((∃ K, ghost m K c) ∗ locals c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 3 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin3]; rfl
  iintro HX
  imod (Rounds.fund ER (a2aRd m) ringCells ringToks) $$ HX with ⟨Hst, Hr, Hat, Htok⟩
  imodintro
  ihave Hst' := (Entails.of_eq (hX fun g => roundState ER (a2aRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero -/

omit [FloatOps F] in
/-- The kernel's own six cells: the local copies' four, send, receive. -/
theorem ownSems0_eq (c : Dev nD) : (Pipeline.ownSems0 (Ix := Unit) (Name := ℕ) (U := UU) (Lvl := ℕ) (Val := Elt F) (τ := τ) osem c : sProp 𝕄)
    = iprop(semVal (lcell c 0) 0 ∗ semVal (lcell c 1) 0 ∗ semVal (lcell c 2) 0 ∗ semVal (lcell c 3) 0 ∗ semVal (sendCell c) 0 ∗ semVal (recvCell c) 0) := by
  rw [Pipeline.ownSems0_eq_of_list c osem [0, 1, 2, 3, 4, 5] (by decide) (by decide)]; rfl
omit [FloatOps F] in
/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 3 => semVal (kcell (c, k)) 0 : sProp 𝕄) ∗ locals c) := by
  rw [ownSems0_eq, unscopedSems0_eq, bigSep_fin3]
  unfold locals
  iintro ⟨⟨H0, H1, H2, H3, HS, HV⟩, HB⟩
  isplitl [HB HS HV]
  · isplitl [HB]; · iexact HB
    isplitl [HS] <;> iassumption
  isplitl [H0]; · iexact H0
  isplitl [H1]; · iexact H1
  isplitl [H2] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(((bigSep Finset.univ fun k => iprop(∃ κ : ℕ, cellInv ER (a2aRd m) κ (kcell (c, k))))
          ∗ (bigSep Finset.univ fun k => iprop(atPos ER (kcell (c, k)) 0 ∅ 0 ∗ reached ER (kcell (c, k)) 0)) ∗ toks c) ∗ locals c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun k : Fin 3 => semVal (kcell (c, k)) 0) ∗ bigSep Finset.univ fun k : Fin 3 => roundState ER (a2aRd m) (kcell (c, k)) 0)
      ⊢ (|={Set.univ}=> bigSep Finset.univ fun k => iprop(∃ κ : ℕ, cellInv ER (a2aRd m) κ (kcell (c, k))) : sProp 𝕄) from by
        rw [← bigSep_sep']
        exact (bigSep_mono fun k _ => (Rounds.body_intro ER (a2aRd m) (kcell (c, k))).trans inv_alloc).trans (bigSep_fupd _ _)) $$ [Hv Hst] with Hinv
  · isplitl [Hv] <;> iassumption
  imodintro
  isplitr [Hloc]
  · isplitl [Hinv]; · iexact Hinv
    isplitl [Hat]; · iexact Hat
    iexact Htok
  iexact Hloc

/-! ## Every cell's invariant and round-0 record, for every device -/

def records (K : Dev nD × Fin 3 → ℕ) : sProp 𝕄 :=
  iprop((bigSep Finset.univ fun ck : Dev nD × Fin 3 => cellInv ER (a2aRd m) (K ck) (kcell ck))
    ∗ bigSep Finset.univ fun ck : Dev nD × Fin 3 => reached ER (kcell ck) 0)

instance records_persistent (K : Dev nD × Fin 3 → ℕ) : BI.Persistent (records m K) := by unfold records; infer_instance

omit [FloatOps F] in
theorem inv_at (K : Dev nD × Fin 3 → ℕ) (ck : Dev nD × Fin 3) :
    (bigSep Finset.univ fun ck : Dev nD × Fin 3 => (cellInv ER (a2aRd m) (K ck) (kcell ck) : sProp 𝕄)) ⊢ cellInv ER (a2aRd m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- The tokens of the duties device c pays: its partner's barrier and receive duties, its own send duty. -/
def payToks (c : Dev nD) : sProp 𝕄 :=
  iprop(dutyTok ER (barCell (peer c)) 0 () ∗ dutyTok ER (recvCell (peer c)) 0 () ∗ dutyTok ER (sendCell c) 0 ())
/-- What stays with device c alone: its positions and those tokens. -/
def linear (c : Dev nD) : sProp 𝕄 :=
  iprop((atPos ER (barCell c) 0 ∅ 0 ∗ atPos ER (sendCell c) 0 ∅ 0 ∗ atPos ER (recvCell c) 0 ∅ 0) ∗ payToks c)

omit [FloatOps F] in
theorem ghost_intro (K : Dev nD × Fin 3 → ℕ) (c : Dev nD) : iprop(records m K ∗ linear c) ⊢ iprop(∃ K, ghost m K c) := by
  unfold records linear payToks ghost invs
  iintro ⟨⟨#HI, #HR⟩, ⟨HaB, HaS, HaV⟩, HtB, HtV, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtB]; · iexact HtB
  isplitl [HtV]; · iexact HtV
  iexact HtS

omit [FloatOps F] in
/-- The tokens dealt across the pairs: a device's barrier token and receive token go to its partner. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (a2aRd m) κ (kcell (c, k))))
          ∗ (bigSep Finset.univ fun k => iprop(atPos ER (kcell (c, k)) 0 ∅ 0 ∗ reached ER (kcell (c, k)) 0)) ∗ toks c) : sProp 𝕄)
      ⊢ bigSep Finset.univ fun c : Dev nD => iprop(∃ K, ghost m K c) := by
  rw [bigSep_sep', bigSep_sep', ← bigSep_univ_prod (fun ck : Dev nD × Fin 3 => iprop(∃ κ : ℕ, cellInv ER (a2aRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (a2aRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

omit [FloatOps F] in
/-- The same with the local copies' cells carried along. -/
theorem regroup_locals :
    (bigSep Finset.univ fun c : Dev nD => iprop(((bigSep Finset.univ fun k => iprop(∃ κ : ℕ, cellInv ER (a2aRd m) κ (kcell (c, k))))
          ∗ (bigSep Finset.univ fun k => iprop(atPos ER (kcell (c, k)) 0 ∅ 0 ∗ reached ER (kcell (c, k)) 0)) ∗ toks c) ∗ locals c) : sProp 𝕄)
      ⊢ bigSep Finset.univ (G' m) := by
  rw [bigSep_sep']
  refine (sep_mono_left (regroup m)).trans ?_
  exact Entails.of_eq (bigSep_sep' Finset.univ (fun c : Dev nD => iprop(∃ K, ghost m K c)) (fun c : Dev nD => (locals c : sProp 𝕄))).symm

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup_locals m))

/-! ## The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device d owes device c's barrier cell: a unit when d is c's partner. -/
theorem owed_bar (d c : Dev nD) : Ow d (barCell c) () = if d = peer c then 1 else 0 := by
  unfold Ow
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
/-- What device d owes device c's receive cell: the copy's credit when d is c's partner. -/
theorem owed_recv (d c : Dev nD) : Ow d (recvCell c) () = if d = peer c then N else 0 := by
  unfold Ow
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing Ow) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing Ow) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (peer c) fun _ => N, if_pos (Finset.mem_univ _)]

omit [FloatOps F] in
theorem creds (c : Dev nD) :
    (Pipeline.launchCred Ow c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ## The theorem's side conditions -/

omit [FloatOps F] in
theorem start_intro (c : Dev nD) :
    iprop(Pipeline.unscopedRestP Pipeline.Prefetch.none cfg0.spec c (fun b => m ((c : Thread nD τ).loc b)) ∗ levAts Lset lv
        ∗ Pipeline.launchCred Ow c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  icases Hc with ⟨H1, HN⟩
  imodintro
  unfold start G'
  icases HG with ⟨HG, Hloc⟩
  isplitl
  · isplitl [HG]; · iexact HG
    isplitl [H1]; · iexact H1
    isplitl [HN]; · iexact HN
    isplitl [Hlev]; · iexact Hlev
    isplitl [Hloc]; · iexact Hloc
    isplitl [Hx]; · iexact Hx
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m 0 c).Φ (Fin.last cfg0.N) ⊢ iprop(((((c : Thread nD τ).loc main_arg0) ↦{fullShare} X m c) ∗ (((c : Thread nD τ).loc main_v1) ↦{fullShare} finalO m c))
      ∗ Pipeline.ownSems0 osem c ∗ Pipeline.scopedRest cfg0.spec c) := by
  rw [show (dats m 0 c).Φ (Fin.last cfg0.N) = Φ₁ m c from rfl, scopedRest0_eq, ownSems0_eq]
  unfold Φ₁ locals
  iintro ⟨Hx, Ho, ⟨%f, Hr⟩, ⟨H0, H1, H2, H3⟩, HzS, HzV⟩
  isplitl [Hx Ho]
  · isplitl [Hx] <;> iassumption
  isplitr [Hr]
  · isplitl [H0]; · iexact H0
    isplitl [H1]; · iexact H1
    isplitl [H2]; · iexact H2
    isplitl [H3]; · iexact H3
    isplitl [HzS] <;> iassumption
  iexists f; iexact Hr

omit [FloatOps F] in
theorem waits (c : Dev nD) : (levAts Lset lv : sProp 𝕄) ⊢ Pipeline.cellsWaits cfgs (dats m) () 0 c :=
  Pipeline.cellsWaits_intro cfgs (dats m) () 0 c fun w => w.elim0

/-! ## The run -/

set_option maxRecDepth 8000 in
/-- At the compiled mesh of eight devices, for any float values, from any memory with zero counters, given the body
    obligation of every device: every weakly fair execution of @main terminates, and every final state has each device's
    result array at its closed form and its argument block unchanged. -/
theorem run_main (hbody : ∀ c : Dev nD, BodyObligation (dats (F := F) m 0 c) (defs₀ (F := F)) 𝒱₀ () Set.univ) :
    θ_run defs (onTc (τ := τ) (main (F := F))) (s₀ m ρ) (fun r => ∀ c : Dev nD,
      r.2.mem ((c : Thread nD τ).loc main_v1) = finalO m c
      ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := fun _ w => w.elim0)
    (hdistinct := winFacts0.arr_inj)
    (O₀ := Ow) (howed₀ := fun _ => rfl) (howedN := fun _ => rfl)
    (L := Lset) (lv := lv) (hL := Lset_of_ne) (hwaits := waits m)
    (G := G m) (G' := G' m) (u₀ := u₀)
    (hu₀ := by
      unfold u₀
      iintro Hu
      ihave H := (ownU_pair _ _) $$ Hu
      icases H with ⟨HP, HXC⟩
      ihave H' := (own_pair_emb embR _ _) $$ HXC
      icases H' with ⟨HX, -⟩
      imod (fund_ring m) $$ HX with HG
      imodintro
      isplitl [HP] <;> iassumption)
    (hglob := glob m)
    (hA := fun _ w => w.elim0) (hpf := fun _ k => k.elim0)
    (X := start m) (Y := fun c => iprop((((c : Thread nD τ).loc main_arg0) ↦{fullShare} X m c) ∗ (((c : Thread nD τ).loc main_v1) ↦{fullShare} finalO m c)))
    (Z := fun _ => iprop(emp))
    (hX := start_intro m ρ) (hin := phi0_intro m) (hout := phi1_exit m)
    (QY := fun c s => s.mem ((c : Thread nD τ).loc main_v1) = finalO m c ∧ s.mem ((c : Thread nD τ).loc main_arg0) = m ((c : Thread nD τ).loc main_arg0))
    (hY := fun c s' => by
      iintro ⟨⟨Hx, Ho⟩, -, HSI⟩
      icombine HSI Hx gives %hx
      icombine HSI Ho gives %ho
      imodintro
      isplitr
      · ipureintro; exact ⟨Buf.eq_of_forall_mem_univ ho, Buf.eq_of_forall_mem_univ hx⟩
      iexact HSI)
    (hQ := fun _ h c => (h c).2.2)

/-- info: 'Cert.KernelIdeal.A2A.run_main' depends on axioms: [propext, Classical.choice, Quot.sound] -/
#guard_msgs in #print axioms run_main

end Cert.KernelIdeal.A2A

end
-- ==== Proof.KernelIdealRegions.lean ====
/-
  The all-to-all exchange: cutting a device's two arrays into the regions the copies work on, and putting them back.

  The result buffer of device c (16384 x 1024) is nine row bands: the 8192 rows [8192 (peer c / 4), +8192) that the
  partner's copy fills, and the eight chunks [8192 (c/4) + 1024 r, +1024), r < 8, of its own 8192 rows. The bands are
  pairwise disjoint (they are separated on the row axis) and every row lies in one of them, so the whole buffer is
  the separating conjunction of the nine bands, at any contents. At the end each band holds the final contents
  `finalO`: on the partner's rows what the partner's copy wrote (the partner's block, columns [1024 (c/4), +1024)),
  on chunk r the device's own block, rows [1024 r, +1024) of the same columns. The argument block (8192 x 2048) is
  only read: half a share of the columns the remote copy reads is set apart, the rest of that half and the other
  half stay with the local copies.
-/
import proofs.«900621_g7700000000000622_dist_a2a_v7x_xyz2x2x2_x_m8192_n1024_f32_1_alg».proof.Proof.KernelIdealData
import Idealize.ShloMosaic.Lib.Pipeline.Value

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The row bands of the result, by coordinates -/

/-- The rows device d's copy fills in its partner's result: [8192 (d/4), +8192), every column. -/
theorem mem_dst (d : Dev nD) (i : S16384x1024.Idx) :
    i ∈ (dstM d).view.set ↔ 8192 * (d.val / 4) ≤ (i 0).val ∧ (i 0).val < 8192 * (d.val / 4) + 8192 := by
  show i ∈ ((View.whole main_v1).slice (Rect.unit (s := S16384x1024) (k0_off1 d) S8192x1024.size (k0_off1_inb d))).set ↔ _
  rw [View.set_slice_whole, Rect.mem_set_unit, k0_off1_eq]
  constructor
  · intro h
    have h0 : 8192 * (d.val / 4) ≤ (i 0).val ∧ (i 0).val < 8192 * (d.val / 4) + 8192 := h 0
    exact h0
  · intro h a
    match a with
    | ⟨0, _⟩ => exact h
    | ⟨1, _⟩ =>
      have h1 : (i 1).val < 1024 := (i 1).isLt
      show 0 ≤ (i 1).val ∧ (i 1).val < 0 + 1024
      omega

/-- Chunk r of device c's own rows: [8192 (c/4) + 1024 r, +1024), every column. -/
theorem mem_chunk (c : Dev nD) (r : Fin 8) (i : S16384x1024.Idx) :
    i ∈ (chunkM c r).view.set ↔ 8192 * (c.val / 4) + 1024 * r.val ≤ (i 0).val ∧ (i 0).val < 8192 * (c.val / 4) + 1024 * r.val + 1024 := by
  show i ∈ ((View.whole main_v1).slice (Rect.unit (s := S16384x1024) (k0_off4 c (BitVec.ofNat 32 (1024 * r.val))) S1024x1024.size (k0_off4_inb c r))).set ↔ _
  rw [View.set_slice_whole, Rect.mem_set_unit, k0_off4_eq]
  constructor
  · intro h
    have h0 : 8192 * (c.val / 4) + 1024 * r.val ≤ (i 0).val ∧ (i 0).val < 8192 * (c.val / 4) + 1024 * r.val + 1024 := h 0
    exact h0
  · intro h a
    match a with
    | ⟨0, _⟩ => exact h
    | ⟨1, _⟩ =>
      have h1 : (i 1).val < 1024 := (i 1).isLt
      show 0 ≤ (i 1).val ∧ (i 1).val < 0 + 1024
      omega

/-- The columns of device c's argument block that its copy reads: [1024 (peer c / 4), +1024), every row. -/
theorem mem_src (c : Dev nD) (i : S8192x2048.Idx) :
    i ∈ (srcM c).view.set ↔ 1024 - 1024 * (c.val / 4) ≤ (i 1).val ∧ (i 1).val < 1024 - 1024 * (c.val / 4) + 1024 := by
  show i ∈ ((View.whole main_arg0).slice (Rect.unit (s := S8192x2048) (k0_off2 c) S8192x1024.size (k0_off2_inb c))).set ↔ _
  rw [View.set_slice_whole, Rect.mem_set_unit, k0_off2_eq]
  constructor
  · intro h
    have h1 : 1024 - 1024 * (c.val / 4) ≤ (i 1).val ∧ (i 1).val < 1024 - 1024 * (c.val / 4) + 1024 := h 1
    exact h1
  · intro h a
    match a with
    | ⟨0, _⟩ =>
      have h0 : (i 0).val < 8192 := (i 0).isLt
      show 0 ≤ (i 0).val ∧ (i 0).val < 0 + 8192
      omega
    | ⟨1, _⟩ => exact h

/-- The partner's rows and a chunk of the device's own rows do not meet. -/
theorem rem_chunk_disjoint (c : Dev nD) (r : Fin 8) : Disjoint (dstM (peer c)).view.set (chunkM c r).view.set := by
  rw [Finset.disjoint_left]
  intro i h1 h2
  rw [mem_dst] at h1
  rw [mem_chunk] at h2
  have hp := peer_x c
  have hr := r.isLt
  have hc8 : c.val < 8 := c.isLt
  have hc : c.val / 4 ≤ 1 := by omega
  omega

/-- Two different chunks do not meet. -/
theorem chunk_chunk_disjoint (c : Dev nD) (r s : Fin 8) (h : r ≠ s) : Disjoint (chunkM c r).view.set (chunkM c s).view.set := by
  rw [Finset.disjoint_left]
  intro i h1 h2
  rw [mem_chunk] at h1 h2
  have hne : r.val ≠ s.val := fun e => h (Fin.ext e)
  omega

/-! ## Every row lies in one of the nine bands -/

/-- The nine bands of device c's result, as one union: the partner's rows first, then the eight chunks in order. -/
abbrev bands (c : Dev nD) : Finset (Idx ((c : Thread nD τ).loc main_v1)) :=
  (dstM (peer c)).view.set ∪ ((chunkM c 0).view.set ∪ ((chunkM c 1).view.set ∪ ((chunkM c 2).view.set ∪ ((chunkM c 3).view.set
    ∪ ((chunkM c 4).view.set ∪ ((chunkM c 5).view.set ∪ ((chunkM c 6).view.set ∪ (chunkM c 7).view.set)))))))

theorem bands_eq_univ (c : Dev nD) : bands c = Finset.univ := by
  refine Finset.eq_univ_of_forall fun i => ?_
  have h0 : (i 0).val < 16384 := (i 0).isLt
  have hp := peer_x c
  have hc8 : c.val < 8 := c.isLt
  have hc : c.val / 4 ≤ 1 := by omega
  have e0 : ((0 : Fin 8) : ℕ) = 0 := rfl
  have e1 : ((1 : Fin 8) : ℕ) = 1 := rfl
  have e2 : ((2 : Fin 8) : ℕ) = 2 := rfl
  have e3 : ((3 : Fin 8) : ℕ) = 3 := rfl
  have e4 : ((4 : Fin 8) : ℕ) = 4 := rfl
  have e5 : ((5 : Fin 8) : ℕ) = 5 := rfl
  have e6 : ((6 : Fin 8) : ℕ) = 6 := rfl
  have e7 : ((7 : Fin 8) : ℕ) = 7 := rfl
  have key :
      (8192 * ((peer c).val / 4) ≤ (i 0).val ∧ (i 0).val < 8192 * ((peer c).val / 4) + 8192)
      ∨ (8192 * (c.val / 4) + 1024 * ((0 : Fin 8) : ℕ) ≤ (i 0).val ∧ (i 0).val < 8192 * (c.val / 4) + 1024 * ((0 : Fin 8) : ℕ) + 1024)
      ∨ (8192 * (c.val / 4) + 1024 * ((1 : Fin 8) : ℕ) ≤ (i 0).val ∧ (i 0).val < 8192 * (c.val / 4) + 1024 * ((1 : Fin 8) : ℕ) + 1024)
      ∨ (8192 * (c.val / 4) + 1024 * ((2 : Fin 8) : ℕ) ≤ (i 0).val ∧ (i 0).val < 8192 * (c.val / 4) + 1024 * ((2 : Fin 8) : ℕ) + 1024)
      ∨ (8192 * (c.val / 4) + 1024 * ((3 : Fin 8) : ℕ) ≤ (i 0).val ∧ (i 0).val < 8192 * (c.val / 4) + 1024 * ((3 : Fin 8) : ℕ) + 1024)
      ∨ (8192 * (c.val / 4) + 1024 * ((4 : Fin 8) : ℕ) ≤ (i 0).val ∧ (i 0).val < 8192 * (c.val / 4) + 1024 * ((4 : Fin 8) : ℕ) + 1024)
      ∨ (8192 * (c.val / 4) + 1024 * ((5 : Fin 8) : ℕ) ≤ (i 0).val ∧ (i 0).val < 8192 * (c.val / 4) + 1024 * ((5 : Fin 8) : ℕ) + 1024)
      ∨ (8192 * (c.val / 4) + 1024 * ((6 : Fin 8) : ℕ) ≤ (i 0).val ∧ (i 0).val < 8192 * (c.val / 4) + 1024 * ((6 : Fin 8) : ℕ) + 1024)
      ∨ (8192 * (c.val / 4) + 1024 * ((7 : Fin 8) : ℕ) ≤ (i 0).val ∧ (i 0).val < 8192 * (c.val / 4) + 1024 * ((7 : Fin 8) : ℕ) + 1024) := by
    omega
  rcases key with h | h | h | h | h | h | h | h | h
  · exact Finset.mem_union_left _ ((mem_dst (peer c) i).mpr h)
  · exact Finset.mem_union_right _ (Finset.mem_union_left _ ((mem_chunk c 0 i).mpr h))
  · exact Finset.mem_union_right _ (Finset.mem_union_right _ (Finset.mem_union_left _ ((mem_chunk c 1 i).mpr h)))
  · exact Finset.mem_union_right _ (Finset.mem_union_right _ (Finset.mem_union_right _ (Finset.mem_union_left _ ((mem_chunk c 2 i).mpr h))))
  · exact Finset.mem_union_right _ (Finset.mem_union_right _ (Finset.mem_union_right _ (Finset.mem_union_right _
      (Finset.mem_union_left _ ((mem_chunk c 3 i).mpr h)))))
  · exact Finset.mem_union_right _ (Finset.mem_union_right _ (Finset.mem_union_right _ (Finset.mem_union_right _
      (Finset.mem_union_right _ (Finset.mem_union_left _ ((mem_chunk c 4 i).mpr h))))))
  · exact Finset.mem_union_right _ (Finset.mem_union_right _ (Finset.mem_union_right _ (Finset.mem_union_right _
      (Finset.mem_union_right _ (Finset.mem_union_right _ (Finset.mem_union_left _ ((mem_chunk c 5 i).mpr h)))))))
  · exact Finset.mem_union_right _ (Finset.mem_union_right _ (Finset.mem_union_right _ (Finset.mem_union_right _
      (Finset.mem_union_right _ (Finset.mem_union_right _ (Finset.mem_union_right _ (Finset.mem_union_left _ ((mem_chunk c 6 i).mpr h))))))))
  · exact Finset.mem_union_right _ (Finset.mem_union_right _ (Finset.mem_union_right _ (Finset.mem_union_right _
      (Finset.mem_union_right _ (Finset.mem_union_right _ (Finset.mem_union_right _ (Finset.mem_union_right _ ((mem_chunk c 7 i).mpr h))))))))

/-! ## Points-to along a union of disjoint element sets, as an equation -/

theorem pointsTo_union_eq {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  BI.equiv_iff.mp ⟨(pointsTo_union h).1, (pointsTo_union h).2⟩

/-! ## The result buffer: cut into its nine bands, at one contents -/

/-- Chunk r of device c's own rows, held whole at contents f. -/
def chunkPts (c : Dev nD) (r : Fin 8) (f : Buf (Elt F) ((chunkM c r).view.loc (c : Thread nD τ))) : sProp 𝕄 :=
  (chunkM c r).view.loc (c : Thread nD τ) ↦[(chunkM c r).view.set]{fullShare} f
/-- The rows of c's result that the partner fills, held whole at contents f. -/
def remPts (c : Dev nD) (f : Buf (Elt F) ((dstM (peer c)).view.loc (c : Thread nD τ))) : sProp 𝕄 :=
  (dstM (peer c)).view.loc (c : Thread nD τ) ↦[(dstM (peer c)).view.set]{fullShare} f

/-- The whole result buffer at contents f is its nine bands at f. -/
theorem out_eq (c : Dev nD) (f : Buf (Elt F) ((c : Thread nD τ).loc main_v1)) :
    ((((c : Thread nD τ).loc main_v1) ↦{fullShare} f) : sProp 𝕄)
      = iprop(remPts c f ∗ chunkPts c 0 f ∗ chunkPts c 1 f ∗ chunkPts c 2 f ∗ chunkPts c 3 f ∗ chunkPts c 4 f ∗ chunkPts c 5 f ∗ chunkPts c 6 f ∗ chunkPts c 7 f) := by
  have d67 : Disjoint (chunkM c 6).view.set (chunkM c 7).view.set := chunk_chunk_disjoint c 6 7 (by decide)
  have d5 : Disjoint (chunkM c 5).view.set ((chunkM c 6).view.set ∪ (chunkM c 7).view.set) :=
    Finset.disjoint_union_right.mpr ⟨chunk_chunk_disjoint c 5 6 (by decide), chunk_chunk_disjoint c 5 7 (by decide)⟩
  have d4 : Disjoint (chunkM c 4).view.set ((chunkM c 5).view.set ∪ ((chunkM c 6).view.set ∪ (chunkM c 7).view.set)) :=
    Finset.disjoint_union_right.mpr ⟨chunk_chunk_disjoint c 4 5 (by decide), Finset.disjoint_union_right.mpr
      ⟨chunk_chunk_disjoint c 4 6 (by decide), chunk_chunk_disjoint c 4 7 (by decide)⟩⟩
  have d3 : Disjoint (chunkM c 3).view.set ((chunkM c 4).view.set ∪ ((chunkM c 5).view.set ∪ ((chunkM c 6).view.set ∪ (chunkM c 7).view.set))) :=
    Finset.disjoint_union_right.mpr ⟨chunk_chunk_disjoint c 3 4 (by decide), Finset.disjoint_union_right.mpr
      ⟨chunk_chunk_disjoint c 3 5 (by decide), Finset.disjoint_union_right.mpr
      ⟨chunk_chunk_disjoint c 3 6 (by decide), chunk_chunk_disjoint c 3 7 (by decide)⟩⟩⟩
  have d2 : Disjoint (chunkM c 2).view.set ((chunkM c 3).view.set ∪ ((chunkM c 4).view.set ∪ ((chunkM c 5).view.set ∪ ((chunkM c 6).view.set ∪ (chunkM c 7).view.set)))) :=
    Finset.disjoint_union_right.mpr ⟨chunk_chunk_disjoint c 2 3 (by decide), Finset.disjoint_union_right.mpr
      ⟨chunk_chunk_disjoint c 2 4 (by decide), Finset.disjoint_union_right.mpr
      ⟨chunk_chunk_disjoint c 2 5 (by decide), Finset.disjoint_union_right.mpr
      ⟨chunk_chunk_disjoint c 2 6 (by decide), chunk_chunk_disjoint c 2 7 (by decide)⟩⟩⟩⟩
  have d1 : Disjoint (chunkM c 1).view.set ((chunkM c 2).view.set ∪ ((chunkM c 3).view.set ∪ ((chunkM c 4).view.set ∪ ((chunkM c 5).view.set ∪ ((chunkM c 6).view.set ∪ (chunkM c 7).view.set))))) :=
    Finset.disjoint_union_right.mpr ⟨chunk_chunk_disjoint c 1 2 (by decide), Finset.disjoint_union_right.mpr
      ⟨chunk_chunk_disjoint c 1 3 (by decide), Finset.disjoint_union_right.mpr
      ⟨chunk_chunk_disjoint c 1 4 (by decide), Finset.disjoint_union_right.mpr
      ⟨chunk_chunk_disjoint c 1 5 (by decide), Finset.disjoint_union_right.mpr
      ⟨chunk_chunk_disjoint c 1 6 (by decide), chunk_chunk_disjoint c 1 7 (by decide)⟩⟩⟩⟩⟩
  have d0 : Disjoint (chunkM c 0).view.set ((chunkM c 1).view.set ∪ ((chunkM c 2).view.set ∪ ((chunkM c 3).view.set ∪ ((chunkM c 4).view.set ∪ ((chunkM c 5).view.set ∪ ((chunkM c 6).view.set ∪ (chunkM c 7).view.set)))))) :=
    Finset.disjoint_union_right.mpr ⟨chunk_chunk_disjoint c 0 1 (by decide), Finset.disjoint_union_right.mpr
      ⟨chunk_chunk_disjoint c 0 2 (by decide), Finset.disjoint_union_right.mpr
      ⟨chunk_chunk_disjoint c 0 3 (by decide), Finset.disjoint_union_right.mpr
      ⟨chunk_chunk_disjoint c 0 4 (by decide), Finset.disjoint_union_right.mpr
      ⟨chunk_chunk_disjoint c 0 5 (by decide), Finset.disjoint_union_right.mpr
      ⟨chunk_chunk_disjoint c 0 6 (by decide), chunk_chunk_disjoint c 0 7 (by decide)⟩⟩⟩⟩⟩⟩
  have dR : Disjoint (dstM (peer c)).view.set ((chunkM c 0).view.set ∪ ((chunkM c 1).view.set ∪ ((chunkM c 2).view.set ∪ ((chunkM c 3).view.set ∪ ((chunkM c 4).view.set ∪ ((chunkM c 5).view.set ∪ ((chunkM c 6).view.set ∪ (chunkM c 7).view.set))))))) :=
    Finset.disjoint_union_right.mpr ⟨rem_chunk_disjoint c 0, Finset.disjoint_union_right.mpr
      ⟨rem_chunk_disjoint c 1, Finset.disjoint_union_right.mpr
      ⟨rem_chunk_disjoint c 2, Finset.disjoint_union_right.mpr
      ⟨rem_chunk_disjoint c 3, Finset.disjoint_union_right.mpr
      ⟨rem_chunk_disjoint c 4, Finset.disjoint_union_right.mpr
      ⟨rem_chunk_disjoint c 5, Finset.disjoint_union_right.mpr
      ⟨rem_chunk_disjoint c 6, rem_chunk_disjoint c 7⟩⟩⟩⟩⟩⟩⟩
  unfold remPts chunkPts
  rw [← bands_eq_univ c]
  show (((c : Thread nD τ).loc main_v1) ↦[(dstM (peer c)).view.set ∪ ((chunkM c 0).view.set ∪ ((chunkM c 1).view.set ∪ ((chunkM c 2).view.set ∪ ((chunkM c 3).view.set
    ∪ ((chunkM c 4).view.set ∪ ((chunkM c 5).view.set ∪ ((chunkM c 6).view.set ∪ (chunkM c 7).view.set)))))))]{fullShare} f : sProp 𝕄) = _
  rw [pointsTo_union_eq dR, pointsTo_union_eq d0, pointsTo_union_eq d1, pointsTo_union_eq d2, pointsTo_union_eq d3,
    pointsTo_union_eq d4, pointsTo_union_eq d5, pointsTo_union_eq d67]

/-- Cutting the result buffer into its nine bands. -/
theorem out_split (c : Dev nD) (f : Buf (Elt F) ((c : Thread nD τ).loc main_v1)) :
    ((((c : Thread nD τ).loc main_v1) ↦{fullShare} f) : sProp 𝕄)
      ⊢ iprop(remPts c f ∗ chunkPts c 0 f ∗ chunkPts c 1 f ∗ chunkPts c 2 f ∗ chunkPts c 3 f ∗ chunkPts c 4 f ∗ chunkPts c 5 f ∗ chunkPts c 6 f ∗ chunkPts c 7 f) :=
  Entails.of_eq (out_eq c f)

/-! ## The argument block: half a share of the copied columns set apart -/

/-- What stays of the first half share of c's argument block beside the columns its copy reads. -/
def xRest (c : Dev nD) : sProp 𝕄 :=
  ((srcM c).view.loc (c : Thread nD τ)) ↦[Finset.univ \ (srcM c).view.set]{fullShare.left} X m c

theorem x_split (c : Dev nD) :
    ((((c : Thread nD τ).loc main_arg0) ↦{fullShare} X m c) : sProp 𝕄)
      ⊣⊢ iprop(srcPts m c ∗ xRest m c ∗ (((c : Thread nD τ).loc main_arg0) ↦{fullShare.right} X m c)) := by
  have h1 : ((((c : Thread nD τ).loc main_arg0) ↦{fullShare} X m c) : sProp 𝕄)
      ⊣⊢ iprop((((c : Thread nD τ).loc main_arg0) ↦{fullShare.left} X m c) ∗ (((c : Thread nD τ).loc main_arg0) ↦{fullShare.right} X m c)) :=
    pointsTo_share (PosShare.mem_left_op_right fullShare)
  have h2 : ((((c : Thread nD τ).loc main_arg0) ↦{fullShare.left} X m c) : sProp 𝕄)
      ⊣⊢ iprop(srcPts m c ∗ xRest m c) :=
    pointsTo_split_subset (Finset.subset_univ _)
  exact h1.trans ((sep_congr_left h2).trans sep_assoc)

/-! ## Where the copies' views sit, by coordinates -/

theorem dst_emb_val0 (d : Dev nD) (y : S8192x1024.Idx) :
    (((dstM d).view.emb y : S16384x1024.Idx) 0).val = 8192 * (d.val / 4) + (y 0).val := by
  show k0_off1 d 0 + 1 * (y 0).val = _
  rw [k0_off1_eq]
  show 8192 * (d.val / 4) + 1 * (y 0).val = _
  omega
theorem dst_emb_val1 (d : Dev nD) (y : S8192x1024.Idx) :
    (((dstM d).view.emb y : S16384x1024.Idx) 1).val = (y 1).val := by
  show k0_off1 d 1 + 1 * (y 1).val = _
  rw [k0_off1_eq]
  show 0 + 1 * (y 1).val = _
  omega
theorem src_emb_val0 (d : Dev nD) (y : S8192x1024.Idx) :
    (((srcM d).view.emb y : S8192x2048.Idx) 0).val = (y 0).val := by
  show k0_off2 d 0 + 1 * (y 0).val = _
  rw [k0_off2_eq]
  show 0 + 1 * (y 0).val = _
  omega
theorem src_emb_val1 (d : Dev nD) (y : S8192x1024.Idx) :
    (((srcM d).view.emb y : S8192x2048.Idx) 1).val = 1024 - 1024 * (d.val / 4) + (y 1).val := by
  show k0_off2 d 1 + 1 * (y 1).val = _
  rw [k0_off2_eq]
  show 1024 - 1024 * (d.val / 4) + 1 * (y 1).val = _
  omega
theorem chunk_emb_val0 (c : Dev nD) (r : Fin 8) (y : S1024x1024.Idx) :
    (((chunkM c r).view.emb y : S16384x1024.Idx) 0).val = 8192 * (c.val / 4) + 1024 * r.val + (y 0).val := by
  show k0_off4 c (BitVec.ofNat 32 (1024 * r.val)) 0 + 1 * (y 0).val = _
  rw [k0_off4_eq]
  show 8192 * (c.val / 4) + 1024 * r.val + 1 * (y 0).val = _
  omega
theorem chunk_emb_val1 (c : Dev nD) (r : Fin 8) (y : S1024x1024.Idx) :
    (((chunkM c r).view.emb y : S16384x1024.Idx) 1).val = (y 1).val := by
  show k0_off4 c (BitVec.ofNat 32 (1024 * r.val)) 1 + 1 * (y 1).val = _
  rw [k0_off4_eq]
  show 0 + 1 * (y 1).val = _
  omega

/-! ## The final contents, band by band -/

/-- On the partner's rows the landed copy is the final contents: row 8192 (peer c / 4) + y₀, column y₁ holds the
    partner's block at (y₀, 1024 (c/4) + y₁). -/
theorem landed_final (c : Dev nD) : ∀ i ∈ (dstM (peer c)).view.set, landed m c i = finalO m c i := by
  intro i hi
  obtain ⟨y, rfl⟩ := View.exists_emb_of_mem_set _ hi
  have a0 := dst_emb_val0 (peer c) y
  have a1 := dst_emb_val1 (peer c) y
  have b0 := src_emb_val0 (peer c) y
  have b1 := src_emb_val1 (peer c) y
  have hy0 : (y 0).val < 8192 := (y 0).isLt
  have hy1 : (y 1).val < 1024 := (y 1).isLt
  have hp := peer_x c
  have hc8 : c.val < 8 := c.isLt
  have hc : c.val / 4 ≤ 1 := by omega
  unfold landed
  refine (View.write_emb_of_mem _ _ (Finset.mem_univ y)).trans ?_
  show X m (peer c) ((srcM (peer c)).view.emb y) = finalO m c ((dstM (peer c)).view.emb y)
  unfold finalO
  have hne : ¬ ((((dstM (peer c)).view.emb y : S16384x1024.Idx) 0).val / 8192 = c.val / 4) := by omega
  rw [if_neg hne]
  refine congrArg (X m (peer c)) (funext fun a => ?_)
  match a with
  | ⟨0, _⟩ =>
    refine Fin.ext ?_
    show (((srcM (peer c)).view.emb y : S8192x2048.Idx) 0).val = (((dstM (peer c)).view.emb y : S16384x1024.Idx) 0).val % 8192
    omega
  | ⟨1, _⟩ =>
    refine Fin.ext ?_
    show (((srcM (peer c)).view.emb y : S8192x2048.Idx) 1).val = 1024 * (c.val / 4) + (((dstM (peer c)).view.emb y : S16384x1024.Idx) 1).val
    omega

/-- On chunk r of the device's own rows the filled chunk is the final contents, whatever was there before. -/
theorem chunk_final (c : Dev nD) (r : Fin 8) (f : Buf (Elt F) ((c : Thread nD τ).loc main_v1)) :
    ∀ i ∈ (chunkM c r).view.set, (chunkM c r).view.write (Elt F) f (chunkFill m c r) Finset.univ i = finalO m c i := by
  intro i hi
  obtain ⟨y, rfl⟩ := View.exists_emb_of_mem_set _ hi
  have a0 := chunk_emb_val0 c r y
  have a1 := chunk_emb_val1 c r y
  have hy0 : (y 0).val < 1024 := (y 0).isLt
  have hy1 : (y 1).val < 1024 := (y 1).isLt
  have hr : r.val < 8 := r.isLt
  have hc8 : c.val < 8 := c.isLt
  have hc : c.val / 4 ≤ 1 := by omega
  refine (View.write_emb_of_mem _ _ (Finset.mem_univ y)).trans ?_
  show chunkFill m c r y = finalO m c ((chunkM c r).view.emb y)
  unfold finalO chunkFill
  have heq : (((chunkM c r).view.emb y : S16384x1024.Idx) 0).val / 8192 = c.val / 4 := by omega
  rw [if_pos heq]
  refine congrArg (X m c) (funext fun a => ?_)
  match a with
  | ⟨0, _⟩ =>
    refine Fin.ext ?_
    show 1024 * r.val + (y 0).val = (((chunkM c r).view.emb y : S16384x1024.Idx) 0).val % 8192
    omega
  | ⟨1, _⟩ =>
    refine Fin.ext ?_
    show 1024 * (c.val / 4) + (y 1).val = 1024 * (c.val / 4) + (((chunkM c r).view.emb y : S16384x1024.Idx) 1).val
    omega

/-! ## Putting the result buffer back, at the final contents -/

theorem out_join (c : Dev nD) (g : Fin 8 → Buf (Elt F) ((c : Thread nD τ).loc main_v1))
    (hg : ∀ r, ∀ i ∈ (chunkM c r).view.set, g r i = finalO m c i) :
    iprop(landedPts m c ∗ chunkPts c 0 (g 0) ∗ chunkPts c 1 (g 1) ∗ chunkPts c 2 (g 2) ∗ chunkPts c 3 (g 3) ∗ chunkPts c 4 (g 4)
        ∗ chunkPts c 5 (g 5) ∗ chunkPts c 6 (g 6) ∗ chunkPts c 7 (g 7))
      ⊢ ((((c : Thread nD τ).loc main_v1) ↦{fullShare} finalO m c) : sProp 𝕄) := by
  have eL : (landedPts m c : sProp 𝕄) = remPts c (finalO m c) := by
    unfold landedPts remPts; exact pointsTo_congr (landed_final m c)
  have eC : ∀ r : Fin 8, (chunkPts c r (g r) : sProp 𝕄) = chunkPts c r (finalO m c) := fun r => by
    unfold chunkPts; exact pointsTo_congr (hg r)
  rw [eL, eC 0, eC 1, eC 2, eC 3, eC 4, eC 5, eC 6, eC 7]
  exact Entails.of_eq (out_eq c (finalO m c)).symm

/-- info: 'Cert.KernelIdeal.A2A.out_join' depends on axioms: [propext, Classical.choice, Quot.sound] -/
#guard_msgs in
#print axioms out_join

end Cert.KernelIdeal.A2A

end
-- ==== Proof.KernelIdealReads.lean ====
/-
  The all-to-all exchange: what the local copies read.

  Chunk r of a device's own rows is filled from its argument block X_c (8192 x 2048) through the 1024 x 1024 window
  at rows [1024 r, +1024), columns [1024 (c/4), +1024): reading X_c through that window gives, at (y₀, y₁), the
  entry (1024 r + y₀, 1024 (c/4) + y₁) of X_c, which is the chunk's filling `chunkFill`. One lemma over a window at
  any offsets equal to (1024 r, 1024 (c/4)), and its eight instances at the offsets the program computes.
-/
import proofs.«900621_g7700000000000622_dist_a2a_v7x_xyz2x2x2_x_m8192_n1024_f32_1_alg».proof.Proof.KernelIdealRegions

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Reading the argument block through a 1024 x 1024 window whose offsets are (1024 r, 1024 (c/4)) gives chunk r's
    filling. -/
theorem xread_of_off (c : Dev nD) (r : Fin 8) (off : Fin 2 → Nat)
    (inb : ∀ a, off a + S1024x1024.size a ≤ S8192x2048.size a) (hoff : off = ![1024 * r.val, 1024 * (c.val / 4)]) :
    ((Memref.whole main_arg0).slice (Rect.unit (s := S8192x2048) off S1024x1024.size inb) (fun _ => rfl)).view.read (Elt F) (X m c)
      = chunkFill m c r := by
  funext y
  have o0 : off 0 = 1024 * r.val := by rw [hoff]; rfl
  have o1 : off 1 = 1024 * (c.val / 4) := by rw [hoff]; rfl
  refine (View.read_apply _ y).trans ?_
  show X m c (((Memref.whole main_arg0).slice (Rect.unit (s := S8192x2048) off S1024x1024.size inb) (fun _ => rfl)).view.emb y) = chunkFill m c r y
  unfold chunkFill
  refine congrArg (X m c) (funext fun a => ?_)
  match a with
  | ⟨0, _⟩ =>
    refine Fin.ext ?_
    show off 0 + 1 * (y 0).val = 1024 * r.val + (y 0).val
    omega
  | ⟨1, _⟩ =>
    refine Fin.ext ?_
    show off 1 + 1 * (y 1).val = 1024 * (c.val / 4) + (y 1).val
    omega

theorem xread_0 (c : Dev nD) :
    ((Memref.whole main_arg0).slice (Rect.unit (s := S8192x2048) (k0_off3 c) S1024x1024.size (k0_off3_inb c)) (fun _ => rfl)).view.read (Elt F) (X m c)
      = chunkFill m c 0 := xread_of_off m c 0 _ _ (k0_off3_eq c)
theorem xread_1 (c : Dev nD) :
    ((Memref.whole main_arg0).slice (Rect.unit (s := S8192x2048) (k0_off5 c) S1024x1024.size (k0_off5_inb c)) (fun _ => rfl)).view.read (Elt F) (X m c)
      = chunkFill m c 1 := xread_of_off m c 1 _ _ (k0_off5_eq c)
theorem xread_2 (c : Dev nD) :
    ((Memref.whole main_arg0).slice (Rect.unit (s := S8192x2048) (k0_off6 c) S1024x1024.size (k0_off6_inb c)) (fun _ => rfl)).view.read (Elt F) (X m c)
      = chunkFill m c 2 := xread_of_off m c 2 _ _ (k0_off6_eq c)
theorem xread_3 (c : Dev nD) :
    ((Memref.whole main_arg0).slice (Rect.unit (s := S8192x2048) (k0_off7 c) S1024x1024.size (k0_off7_inb c)) (fun _ => rfl)).view.read (Elt F) (X m c)
      = chunkFill m c 3 := xread_of_off m c 3 _ _ (k0_off7_eq c)
theorem xread_4 (c : Dev nD) :
    ((Memref.whole main_arg0).slice (Rect.unit (s := S8192x2048) (k0_off8 c) S1024x1024.size (k0_off8_inb c)) (fun _ => rfl)).view.read (Elt F) (X m c)
      = chunkFill m c 4 := xread_of_off m c 4 _ _ (k0_off8_eq c)
theorem xread_5 (c : Dev nD) :
    ((Memref.whole main_arg0).slice (Rect.unit (s := S8192x2048) (k0_off9 c) S1024x1024.size (k0_off9_inb c)) (fun _ => rfl)).view.read (Elt F) (X m c)
      = chunkFill m c 5 := xread_of_off m c 5 _ _ (k0_off9_eq c)
theorem xread_6 (c : Dev nD) :
    ((Memref.whole main_arg0).slice (Rect.unit (s := S8192x2048) (k0_off10 c) S1024x1024.size (k0_off10_inb c)) (fun _ => rfl)).view.read (Elt F) (X m c)
      = chunkFill m c 6 := xread_of_off m c 6 _ _ (k0_off10_eq c)
theorem xread_7 (c : Dev nD) :
    ((Memref.whole main_arg0).slice (Rect.unit (s := S8192x2048) (k0_off11 c) S1024x1024.size (k0_off11_inb c)) (fun _ => rfl)).view.read (Elt F) (X m c)
      = chunkFill m c 7 := xread_of_off m c 7 _ _ (k0_off11_eq c)

/-- A transfer that reads its source as it is moves what the source's view reads. -/
theorem readAs_same (x : S1024x1024.Idx → Elt F .f32) :
    (ReadAs.same : ReadAs (Elt F) S1024x1024 .f32 S1024x1024 .f32).apply x = x := rfl

/-- info: 'Cert.KernelIdeal.A2A.xread_7' depends on axioms: [propext, Classical.choice, Quot.sound] -/
#guard_msgs in
#print axioms xread_7

end Cert.KernelIdeal.A2A

end
-- ==== Proof.KernelIdealBody.lean ====
/-
  The all-to-all exchange: one device's body.

  From its ghost state, its two arrays and its scratch slots, device c signals its partner's barrier cell (handing over
  the partner's rows of its own result), waits for its own (receiving the rows of the partner's result it fills),
  starts the remote copy of the partner's columns into them, moves its own columns chunk by chunk through the two
  slots into its own rows, and waits for its send and its receive. It ends with its result whole at `finalO`.
-/
import proofs.«900621_g7700000000000622_dist_a2a_v7x_xyz2x2x2_x_m8192_n1024_f32_1_alg».proof.Proof.KernelIdealReads

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

omit [FloatOps F] in
/-- The rows a device hands its partner with its signal, named from the partner's side. -/
theorem rem_respell (c : Dev nD) :
    ((((dstM (peer c)).view.loc (c : Thread nD τ)) ↦[(dstM (peer c)).view.set]{fullShare} O₀ m c) : sProp 𝕄)
      = (((dstM (peer c)).view.loc (peer (peer c) : Thread nD τ)) ↦[(dstM (peer c)).view.set]{fullShare} O₀ m (peer (peer c))) := by
  rw [peer_peer]
omit [FloatOps F] in
theorem reached_respell (c : Dev nD) : (reached ER (recvCell c) 0 : sProp 𝕄) = reached ER (recvCell (peer (peer c))) 0 := by
  rw [peer_peer]

omit [FloatOps F] in
/-- The barrier duty's payload: the rows of the partner's result this device fills, as launched, and the partner's
    receive cell at round 0. -/
theorem payload_bar_own (c : Dev nD) (d : Unit) : (a2aRd (F := F) m).payload (barCell c) 0 d
    = iprop((((dstM c).view.loc (peer c : Thread nD τ)) ↦[(dstM c).view.set]{fullShare} O₀ m (peer c)) ∗ reached ER (recvCell (peer c)) 0) := by
  rw [payload_bar]; rfl
omit [FloatOps F] in
/-- The partner's receive duty's payload, from the sending device's side: the copy's destination rewritten. -/
theorem payload_recv_peer (c : Dev nD) (d : Unit) : (a2aRd (F := F) m).payload (recvCell (peer c)) 0 d
    = (((dstM c).view.loc (peer c : Thread nD τ)) ↦[(dstM c).view.set]{fullShare}
        (dstM c).view.write (Elt F) (O₀ m (peer c)) ((srcM c).view.read (Elt F) (X m c)) Finset.univ) := by
  rw [payload_recv]; unfold recvPay landedPts landed; rw [peer_peer]
omit [FloatOps F] in
theorem payload_send_own (c : Dev nD) (d : Unit) : (a2aRd (F := F) m).payload (sendCell c) 0 d
    = (((srcM c).view.loc (c : Thread nD τ)) ↦[(srcM c).view.set]{fullShare.left} X m c) := by
  rw [payload_send]; rfl

/-- A chunk of the device's own rows, filled whole with its columns of the matching rows of its block, holds the final
    contents there. -/
theorem chunk_done (c : Dev nD) (r : Fin 8) (p : S1024x1024.Idx → Elt F .f32) (hp : p = chunkFill m c r) :
    ((((chunkM c r).view.loc (c : Thread nD τ)) ↦[(chunkM c r).view.set]{fullShare}
        (chunkM c r).view.writes (Elt F) (O₀ m c) [⟨Rect.whole S1024x1024, p⟩]) : sProp 𝕄)
      = chunkPts c r (finalO m c) := by
  subst hp
  unfold chunkPts
  refine pointsTo_congr fun i hi => ?_
  rw [← View.write_univ_eq_writes_whole _ _ [] _]
  exact chunk_final m c r _ i hi

/-- What the receive duty hands over is the partner's rows at the final contents. -/
theorem landed_done (c : Dev nD) : ((a2aRd (F := F) m).payload (recvCell c) 0 () : sProp 𝕄) = remPts c (finalO m c) := by
  rw [payload_recv]; unfold recvPay landedPts remPts; exact pointsTo_congr (landed_final m c)

attribute [local sl_rounds] duties_bar duties_send duties_recv amount_bar amount_send amount_recv
  payload_bar_own payload_send_own payload_recv_peer expect_bar expect_send expect_recv
attribute [local sl_canon] dev1_eq dev2_eq

set_option maxHeartbeats 3200000 in
set_option maxRecDepth 8000 in
/-- The library's body obligation on device c. -/
theorem body_obligation (c : Dev nD) : BodyObligation (dats (F := F) m 0 c) (defs₀ (F := F)) 𝒱₀ () Set.univ := fun t => by
  rw [fin_N t]
  rw [show (Finset.univ : Finset (Fin cfg0.W)) = ∅ from rfl, bigSep_empty, bigSep_empty]
  show iprop(Φ₀ m c ∗ (dats m 0 c).owesAt () t₀.castSucc ∗ emp) ⊢ wp frame (wpE (defs₀ (F := F)) 𝒱₀ c none) Set.univ
    (cc0_body (Memref.whole main_arg0) (Memref.isWhole_whole _) (Memref.whole main_v1) (Memref.isWhole_whole _)
      (Memref.whole cc0_scratch0) (Memref.isWhole_whole _) cc0_scratch1 cc0_scratch2 cc0_scratch3 cc0_scratch4)
    (fun _ => iprop(Φ₁ m c ∗ (dats m 0 c).owesAt () t₀.succ ∗ emp))
  unfold Φ₀ start ghost invs locals Dat.owesAt Pipeline.owesWithin
  rw [show (dats m 0 c).owed t₀.castSucc = Ow c from rfl]
  iintro ⟨⟨⟨⟨%K, ⟨#HIbar, #HIsnd, #HIrcv, #HIbarP, #HIrcvP⟩, HatB, HatS, HatV, #HrBP, #HrVP, #HrS, #HrV, HtBP, HtVP, HtS⟩, HcB, HcV, #Hlev,
    ⟨Hl0, Hl1, Hl2, Hl3⟩, Hxw, How⟩, ⟨%f0, Hscr0⟩⟩, ⟨%W, %hW, HO⟩, -⟩
  -- the argument block: half a share of the partner's columns for the remote copy, half a share of the whole for the local ones
  ihave Hxs := (x_split m c).1 $$ Hxw
  icases Hxs with ⟨Hsrc, Hxrest, Hx0⟩
  -- the result: the partner's rows and the eight chunks of this device's own rows
  ihave Hos := (out_split c (O₀ m c)) $$ How
  icases Hos with ⟨Hrem, Hk0, Hk1, Hk2, Hk3, Hk4, Hk5, Hk6, Hk7⟩
  unfold srcPts remPts chunkPts Ow
  ihave Hx := (Entails.of_eq (show ((((c : Thread nD τ).loc main_arg0) ↦{fullShare.right} X m c) : sProp 𝕄)
      = ((xM.view.loc (c : Thread nD τ)) ↦{fullShare.right} X m c) from rfl)) $$ Hx0
  ihave Hscr := (Entails.of_eq (show ((((c : Thread nD τ).loc cc0_scratch0) ↦{fullShare} f0) : sProp 𝕄)
      = ((vM.view.loc (c : Thread nD τ)) ↦{fullShare} f0) from rfl)) $$ Hscr0
  have hmw := mayWait_bar (F := F) c
  ihave Hrem' := (Entails.of_eq (rem_respell m c)) $$ Hrem
  ihave Htmp := (Entails.of_eq (reached_respell (F := F) c)) $$ HrV
  icases Htmp with #HrV'
  sl_exec (disch := first | exact dev2_eq _ | exact dev1_eq _ | simp only [dev1_eq, dev2_eq])
  -- the send and receive cells close: their counters at zero are the device's again
  imod (Rounds.cell_close ER (a2aRd m) (Set.mem_univ (K (c, 1))) (fun h => h) (R := 1) (duties_later m (sendCell c))) $$ [HatS] with HzS
  · isplitr; · iexact HIsnd
    iexact HatS
  imod (Rounds.cell_close ER (a2aRd m) (Set.mem_univ (K (c, 2))) (fun h => h) (R := 1) (duties_later m (recvCell c))) $$ [HatV] with HzV
  · isplitr; · iexact HIrcv
    iexact HatV
  -- the argument block whole again
  ihave Hxw := (x_split m c).2 $$ [HatS_pay1 Hxrest Hx]
  · unfold srcPts
    isplitl [HatS_pay1]; · iexact HatS_pay1
    isplitl [Hxrest]; · iexact Hxrest
    iexact Hx
  -- the result: every band at the final contents, then whole
  ihave Hrem2 := (Entails.of_eq (landed_done m c)) $$ HatV_pay1
  ihave Hk0' := (Entails.of_eq (chunk_done m c 0 (body_obligation.sl.dma0_1 m c f0) (by sl_unfold_run_names; simp only [ReadAs.apply_same]; rw [View.read_write_univ]; exact xread_0 m c))) $$ Hk0
  ihave Hk1' := (Entails.of_eq (chunk_done m c 1 (body_obligation.sl.dma0_3 m c f0) (by sl_unfold_run_names; simp only [ReadAs.apply_same]; rw [View.read_write_univ]; exact xread_1 m c))) $$ Hk1
  ihave Hk2' := (Entails.of_eq (chunk_done m c 2 (body_obligation.sl.dma0_5 m c f0) (by sl_unfold_run_names; simp only [ReadAs.apply_same]; rw [View.read_write_univ]; exact xread_2 m c))) $$ Hk2
  ihave Hk3' := (Entails.of_eq (chunk_done m c 3 (body_obligation.sl.dma0_7 m c f0) (by sl_unfold_run_names; simp only [ReadAs.apply_same]; rw [View.read_write_univ]; exact xread_3 m c))) $$ Hk3
  ihave Hk4' := (Entails.of_eq (chunk_done m c 4 (body_obligation.sl.dma0_9 m c f0) (by sl_unfold_run_names; simp only [ReadAs.apply_same]; rw [View.read_write_univ]; exact xread_4 m c))) $$ Hk4
  ihave Hk5' := (Entails.of_eq (chunk_done m c 5 (body_obligation.sl.dma0_11 m c f0) (by sl_unfold_run_names; simp only [ReadAs.apply_same]; rw [View.read_write_univ]; exact xread_5 m c))) $$ Hk5
  ihave Hk6' := (Entails.of_eq (chunk_done m c 6 (body_obligation.sl.dma0_13 m c f0) (by sl_unfold_run_names; simp only [ReadAs.apply_same]; rw [View.read_write_univ]; exact xread_6 m c))) $$ Hk6
  ihave Hk7' := (Entails.of_eq (chunk_done m c 7 (body_obligation.sl.dma0_15 m c f0) (by sl_unfold_run_names; simp only [ReadAs.apply_same]; rw [View.read_write_univ]; exact xread_7 m c))) $$ Hk7
  ihave How := (Entails.of_eq (out_eq c (finalO m c)).symm) $$ [Hrem2 Hk0' Hk1' Hk2' Hk3' Hk4' Hk5' Hk6' Hk7']
  · isplitl [Hrem2]; · iexact Hrem2
    isplitl [Hk0']; · iexact Hk0'
    isplitl [Hk1']; · iexact Hk1'
    isplitl [Hk2']; · iexact Hk2'
    isplitl [Hk3']; · iexact Hk3'
    isplitl [Hk4']; · iexact Hk4'
    isplitl [Hk5']; · iexact Hk5'
    isplitl [Hk6']; · iexact Hk6'
    iexact Hk7'
  sl_step
  unfold Φ₁ locals
  isplitl [Hxw How Hscr Hl0 Hl1 Hl2 Hl3 HzS HzV]
  · isplitl [Hxw]; · iexact Hxw
    isplitl [How]; · iexact How
    isplitl [Hscr]; · iexists _; iexact Hscr
    isplitl [Hl0 Hl1 Hl2 Hl3]
    · isplitl [Hl0]; · iexact Hl0
      isplitl [Hl1]; · iexact Hl1
      isplitl [Hl2]; · iexact Hl2
      iexact Hl3
    isplitl [HzS]; · iexact HzS
    iexact HzV
  isplitl [HO]
  · iexists _
    isplitr
    on_goal 2 => iexact HO
    ipureintro; exact fun _ _ => Or.inl trivial
  iempintro

end Body

/-- info: 'Cert.KernelIdeal.A2A.body_obligation' depends on axioms: [propext, Classical.choice, Quot.sound] -/
#guard_msgs in #print axioms body_obligation

end Cert.KernelIdeal.A2A

end
-- ==== Proof.KernelIdealValue.lean ====
/-
  The all-to-all exchange: a device's result is its column block of the whole array.

  The whole array A is 16384 x 2048. Device c sits at x-coordinate c / 4; it holds the row block
  [8192 (c/4), +8192) of A and must end holding the column block [1024 (c/4), +1024) of A. Entry (i, j) of the
  result is entry (i mod 8192, 1024 (c/4) + j) of the row block of the device at x-coordinate i / 8192 (the device
  itself or its partner), that is entry (8192 (i / 8192) + i mod 8192, 1024 (c/4) + j) = (i, 1024 (c/4) + j) of A:
  entry (i, j) of the column block. Pure data movement: nothing is computed on the elements.
-/
import proofs.«900621_g7700000000000622_dist_a2a_v7x_xyz2x2x2_x_m8192_n1024_f32_1_alg».proof.Proof.KernelIdealData
import Idealize.ShloMosaic.Lib.Layout

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The mesh: a device's block coordinates -/

/-- On the 2 x 2 x 2 mesh, numbered row-major, device c's coordinate on the outermost axis is c / 4. -/
theorem meshLin_x (c : Dev nD) : Layout.meshLin [2, 2, 2] c.val [0] = c.val / 4 := by revert c; decide

theorem x_lt (c : Dev nD) : c.val / 4 < 2 := by have h : c.val < 8 := c.isLt; omega

/-! ## The index equation -/

/-- Entry k of device d's row block is entry (8192 (d/4) + k₀, k₁) of the whole array. -/
theorem rowBlock_apply (A : (⟨2, ![16384, 2048]⟩ : Shape).Idx → Elt F .f32) (d : Dev nD)
    (k : (⟨2, ![8192, 2048]⟩ : Shape).Idx) (k' : (⟨2, ![16384, 2048]⟩ : Shape).Idx)
    (h0 : (k' 0).val = 8192 * (d.val / 4) + (k 0).val) (h1 : (k' 1).val = (k 1).val) :
    (Layout.blockN ⟨2, ![8192, 2048]⟩ ⟨2, ![16384, 2048]⟩ (Layout.meshBlock [2, 2, 2] ![[0], []] d) A) k = A k' := by
  rw [Layout.blockN_apply]
  congr 1
  funext b
  apply Fin.ext
  rw [Layout.TilesN.idx_val, Layout.meshBlock_val]
  match b with
  | ⟨0, _⟩ =>
    show Layout.meshLin [2, 2, 2] d.val [0] * 8192 + (k 0).val = (k' 0).val
    rw [meshLin_x, h0]; omega
  | ⟨1, _⟩ =>
    show Layout.meshLin [2, 2, 2] d.val [] * 2048 + (k 1).val = (k' 1).val
    rw [h1]; show 0 * 2048 + (k 1).val = (k 1).val; omega

/-- Entry i of device c's column block is entry (i₀, 1024 (c/4) + i₁) of the whole array. -/
theorem colBlock_apply (A : (⟨2, ![16384, 2048]⟩ : Shape).Idx → Elt F .f32) (c : Dev nD)
    (i : (⟨2, ![16384, 1024]⟩ : Shape).Idx) (k' : (⟨2, ![16384, 2048]⟩ : Shape).Idx)
    (h0 : (k' 0).val = (i 0).val) (h1 : (k' 1).val = 1024 * (c.val / 4) + (i 1).val) :
    (Layout.blockN ⟨2, ![16384, 1024]⟩ ⟨2, ![16384, 2048]⟩ (Layout.meshBlock [2, 2, 2] ![[], [0]] c) A) i = A k' := by
  rw [Layout.blockN_apply]
  congr 1
  funext b
  apply Fin.ext
  rw [Layout.TilesN.idx_val, Layout.meshBlock_val]
  match b with
  | ⟨0, _⟩ =>
    show Layout.meshLin [2, 2, 2] c.val [] * 16384 + (i 0).val = (k' 0).val
    rw [h0]; show 0 * 16384 + (i 0).val = (i 0).val; omega
  | ⟨1, _⟩ =>
    show Layout.meshLin [2, 2, 2] c.val [0] * 1024 + (i 1).val = (k' 1).val
    rw [meshLin_x, h1]; omega

/-- Device c ends holding its column block of the whole array, when every device starts holding its row block. -/
theorem finalO_eq (A : (⟨2, ![16384, 2048]⟩ : Shape).Idx → Elt F .f32)
    (hX : ∀ d : Dev nD, X m d = Layout.blockN ⟨2, ![8192, 2048]⟩ ⟨2, ![16384, 2048]⟩ (Layout.meshBlock [2, 2, 2] ![[0], []] d) A)
    (c : Dev nD) :
    finalO m c = Layout.blockN ⟨2, ![16384, 1024]⟩ ⟨2, ![16384, 2048]⟩ (Layout.meshBlock [2, 2, 2] ![[], [0]] c) A := by
  funext i
  have hi0 : (i 0).val < 16384 := (i 0).isLt
  have hc := x_lt c
  have hp := peer_x c
  -- the whole array's index of the entry
  let k' : (⟨2, ![16384, 2048]⟩ : Shape).Idx := fun a => match a with
    | ⟨0, _⟩ => ⟨(i 0).val, (i 0).isLt⟩
    | ⟨1, _⟩ => ⟨1024 * (c.val / 4) + (i 1).val, by have h1 : (i 1).val < 1024 := (i 1).isLt; show _ < 2048; omega⟩
  rw [colBlock_apply A c i k' rfl rfl]
  unfold finalO
  by_cases hcond : (i 0).val / 8192 = c.val / 4
  · rw [if_pos hcond, hX c]
    exact rowBlock_apply A c _ k' (by show (i 0).val = 8192 * (c.val / 4) + (i 0).val % 8192; omega) rfl
  · rw [if_neg hcond, hX (peer c)]
    exact rowBlock_apply A (peer c) _ k' (by show (i 0).val = 8192 * ((peer c).val / 4) + (i 0).val % 8192; omega) rfl

/-- info: 'Cert.KernelIdeal.A2A.finalO_eq' depends on axioms: [propext, Classical.choice, Quot.sound] -/
#guard_msgs in #print axioms finalO_eq

end Cert.KernelIdeal.A2A

end
-- ==== Proof.RefRun.lean ====
/-
  The reference of the all-to-all exchange: a program of one device whose @main returns its argument. It has no
  operation, so every execution ends at once with every buffer as launched.
-/
import proofs.«900621_g7700000000000622_dist_a2a_v7x_xyz2x2x2_x_m8192_n1024_f32_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations: none. -/
abbrev ops : List (HloOp τ sig (Elt F)) := []

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := trivial

/-- From any memory with zero counters every weakly fair execution of @main terminates, and every buffer of the
    device ends as launched. -/
theorem run (m' : (ℓ : Loc nD τ sig) → Buf (Elt F) ℓ) (g' : Dev nD → PrngReg) :
    θ_run (defs (F := F)) (onTc (τ := τ) (main (F := F))) ⟨m', fun _ => 0, g'⟩ (fun r =>
      ∀ (d : Dev nD) (b : Ref sig .tc), r.2.mem ((d.tc : Thread nD τ).loc b) = m' ((d.tc : Thread nD τ).loc b)) :=
  (θ_run defs _ _).mono (fun _ h d b => (h d b).trans rfl)
    (run_seq scopedRefs_eq scopedSems_eq defs main (fun _ => ops) main_eq (fun _ => ops_sub) m' g'
      (fun _ _ h => nomatch h))

/-- info: 'Cert.ReferenceIdeal.RefValue.run' depends on axioms: [propext, Classical.choice, Quot.sound] -/
#guard_msgs in #print axioms run

end Cert.ReferenceIdeal.RefValue

end
-- ==== Proof.lean ====
/-
  The all-to-all exchange along the mesh axis x on the 2 x 2 x 2 mesh, against the reference that returns its argument.

  The whole array A is 16384 x 2048. Device c sits at x-coordinate c / 4; it starts holding the row block
  [8192 (c/4), +8192) of A and must end holding the column block [1024 (c/4), +1024) of A. The rows
  [8192 (c/4), +8192) of its result are its own columns of its own row block, moved locally in eight chunks of 1024
  rows; the other 8192 rows are its columns of its partner's row block, written by the partner's one remote copy,
  which the partner starts only after this device's signal has told it that the result buffer is there to be
  written. So entry (i, j) of the result is entry (i mod 8192, 1024 (c/4) + j) of the row block of the device at
  x-coordinate i / 8192, which is entry (i, 1024 (c/4) + j) of A: entry (i, j) of the column block. Nothing is
  computed on the elements, so the same run holds at the word level and over the extended reals.

  The kernel's run, in both readings, ends with every device's argument block unchanged and its result at that
  array; each frame is that run with the result dropped. The reference has no operation: its run ends with its
  argument A unchanged, and A is the value the devices' results are the column blocks of. The ideal reading
  rewrote no operation, so there is nothing to preserve.
-/
import proofs.«900621_g7700000000000622_dist_a2a_v7x_xyz2x2x2_x_m8192_n1024_f32_1_alg».proof.Defs
import proofs.«900621_g7700000000000622_dist_a2a_v7x_xyz2x2x2_x_m8192_n1024_f32_1_alg».proof.Proof.Gen.Kernel
import proofs.«900621_g7700000000000622_dist_a2a_v7x_xyz2x2x2_x_m8192_n1024_f32_1_alg».proof.Proof.Gen.Kernel.Skeleton
import proofs.«900621_g7700000000000622_dist_a2a_v7x_xyz2x2x2_x_m8192_n1024_f32_1_alg».proof.Proof.Gen.Kernel.Launch
import proofs.«900621_g7700000000000622_dist_a2a_v7x_xyz2x2x2_x_m8192_n1024_f32_1_alg».proof.Proof.Gen.Kernel.Points
import proofs.«900621_g7700000000000622_dist_a2a_v7x_xyz2x2x2_x_m8192_n1024_f32_1_alg».proof.Proof.Gen.Kernel.Frame
import proofs.«900621_g7700000000000622_dist_a2a_v7x_xyz2x2x2_x_m8192_n1024_f32_1_alg».proof.Proof.Gen.KernelIdeal
import proofs.«900621_g7700000000000622_dist_a2a_v7x_xyz2x2x2_x_m8192_n1024_f32_1_alg».proof.Proof.Gen.KernelIdeal.Skeleton
import proofs.«900621_g7700000000000622_dist_a2a_v7x_xyz2x2x2_x_m8192_n1024_f32_1_alg».proof.Proof.Gen.KernelIdeal.Launch
import proofs.«900621_g7700000000000622_dist_a2a_v7x_xyz2x2x2_x_m8192_n1024_f32_1_alg».proof.Proof.Gen.KernelIdeal.Points
import proofs.«900621_g7700000000000622_dist_a2a_v7x_xyz2x2x2_x_m8192_n1024_f32_1_alg».proof.Proof.Gen.KernelIdeal.Frame
import proofs.«900621_g7700000000000622_dist_a2a_v7x_xyz2x2x2_x_m8192_n1024_f32_1_alg».proof.Proof.Gen.ReferenceIdeal
import proofs.«900621_g7700000000000622_dist_a2a_v7x_xyz2x2x2_x_m8192_n1024_f32_1_alg».proof.Proof.Gen.Pre_finite_inputs_Kernel
import proofs.«900621_g7700000000000622_dist_a2a_v7x_xyz2x2x2_x_m8192_n1024_f32_1_alg».proof.Proof.Gen.Pre_finite_inputs_ReferenceIdeal
import Idealize.ShloMosaic.Adequacy
import Idealize.ShloMosaic.Init
import proofs.«900621_g7700000000000622_dist_a2a_v7x_xyz2x2x2_x_m8192_n1024_f32_1_alg».proof.Proof.KernelLaunch
import proofs.«900621_g7700000000000622_dist_a2a_v7x_xyz2x2x2_x_m8192_n1024_f32_1_alg».proof.Proof.KernelBody
import proofs.«900621_g7700000000000622_dist_a2a_v7x_xyz2x2x2_x_m8192_n1024_f32_1_alg».proof.Proof.KernelIdealLaunch
import proofs.«900621_g7700000000000622_dist_a2a_v7x_xyz2x2x2_x_m8192_n1024_f32_1_alg».proof.Proof.KernelIdealBody
import proofs.«900621_g7700000000000622_dist_a2a_v7x_xyz2x2x2_x_m8192_n1024_f32_1_alg».proof.Proof.KernelIdealValue
import proofs.«900621_g7700000000000622_dist_a2a_v7x_xyz2x2x2_x_m8192_n1024_f32_1_alg».proof.Proof.RefRun

noncomputable section

open Idealize.ShloMosaic Idealize.ShloMosaic.TcCoe Idealize.SL.Sem

namespace Cert.Proof.Claims

/-- The word-level kernel runs and leaves its argument blocks unchanged: its run with the result dropped. -/
theorem frame_k : Cert.frame_Kernel (hKernel := Cert.Kernel.Gen.facts) (hPre_finite_inputs_Kernel := Cert.Pre_finite_inputs_Kernel.Gen.facts) := fun m g _ =>
  (θ_run Cert.Kernel.defs _ _).mono (fun _ h c => (h c).2)
    (Cert.Kernel.A2A.run_main (F := Bits) m g fun c => Cert.Kernel.A2A.body_obligation m c)

/-- The idealized kernel runs and leaves its argument blocks unchanged: its run with the result dropped. -/
theorem frame_ki : Cert.frame_KernelIdeal (hKernelIdeal := Cert.KernelIdeal.Gen.facts) (hPre_finite_inputs_Kernel := Cert.Pre_finite_inputs_Kernel.Gen.facts) := fun m g _ =>
  (θ_run Cert.KernelIdeal.defs _ _).mono (fun _ h c => (h c).2)
    (Cert.KernelIdeal.A2A.run_main (F := Ideal) m g fun c => Cert.KernelIdeal.A2A.body_obligation m c)

/-- The reference runs and leaves its argument unchanged. -/
theorem frame_ri : Cert.frame_ReferenceIdeal (hReferenceIdeal := Cert.ReferenceIdeal.Gen.facts) (hPre_finite_inputs_ReferenceIdeal := Cert.Pre_finite_inputs_ReferenceIdeal.Gen.facts) := fun m g _ =>
  (θ_run Cert.ReferenceIdeal.defs _ _).mono (fun _ h c => h c Cert.ReferenceIdeal.main_arg0) (Cert.ReferenceIdeal.RefValue.run m g)

/-- The ideal reading rewrote no operation. -/
theorem preserves : Cert.preserves_Kernel_KernelIdeal := trivial

/-- The reference returns its argument A; every device of the kernel ends holding its column block of A, given that
    every device starts holding its row block of A. -/
theorem algebraic : Cert.algebraic_KernelIdeal_ReferenceIdeal (hKernelIdeal := Cert.KernelIdeal.Gen.facts) (hReferenceIdeal := Cert.ReferenceIdeal.Gen.facts) (hPre_finite_inputs_Kernel := Cert.Pre_finite_inputs_Kernel.Gen.facts) := by
  intro m g m' g' _ hagree
  refine ⟨m' (((0 : Dev Cert.ReferenceIdeal.nD).tc : Thread Cert.ReferenceIdeal.nD Cert.ReferenceIdeal.τ).loc Cert.ReferenceIdeal.main_arg0), ?_, ?_⟩
  · refine (θ_run Cert.KernelIdeal.defs _ _).mono (fun _ h c => ⟨(h c).1.trans ?_, (h c).2⟩)
      (Cert.KernelIdeal.A2A.run_main (F := Ideal) m g fun c => Cert.KernelIdeal.A2A.body_obligation m c)
    exact Cert.KernelIdeal.A2A.finalO_eq m _ hagree c
  · exact (θ_run Cert.ReferenceIdeal.defs _ _).mono (fun _ h => ⟨h 0 Cert.ReferenceIdeal.main_arg0, h 0 Cert.ReferenceIdeal.main_arg0⟩)
      (Cert.ReferenceIdeal.RefValue.run m' g')

end Cert.Proof.Claims

namespace Cert.Proof

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Claims.frame_k, Claims.frame_ki, Claims.frame_ri, Claims.preserves, Claims.algebraic⟩

end Cert.Proof

end
